-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x32 : Shape := ⟨2, ![800000, 32]⟩
abbrev S50000x32 : Shape := ⟨2, ![50000, 32]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x128 : Shape := ⟨2, ![96, 128]⟩
abbrev S800000x2 : Shape := ⟨2, ![800000, 2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S50000x32 : S_.BroadcastsInDim S50000x32 (![] : Fin 0 → Fin S50000x32.rank)
  reducesTo_S50000x32_S_d0_1 : S50000x32.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S96x128 : S_.BroadcastsInDim S96x128 (![] : Fin 0 → Fin S96x128.rank)
  reducesTo_S96x128_S_d0_1 : S96x128.ReducesTo [0, 1] S_

variable [Facts]

def fn_part3 {F : FTy → Type} [FloatOps F] (main_arg11 : FVec F S128x64 .f32) (main_arg12 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg7 : FVec F S128x64 .f32) (main_arg8 : FVec F S64 .f32) (main_arg9 : FVec F S96x128 .f32) (main_arg10 : FVec F S128 .f32) (main_arg11 : FVec F S128x64 .f32) (main_arg12 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S96x128 .f32 := Host.absf main_arg9
  let main_cst_16 : FVec F S_ .f32 := constant S_ .f32 0x7F800000#32
  let main_v45 : FVec F S96x128 .f32 := broadcastInDim S96x128 ![] bcast_S_S96x128 main_cst_16
  let main_v46 : IVec S96x128 1 := cmpf .olt main_v44 main_v45
  let main_c_17 : IVec S_ 1 := constantI S_ 1 1#1
  let main_v47 : IVec S_ 1 := (fun x v => Host.reduce IntOp.andi x v reducesTo_S96x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x64 .f32) (main_arg8 : FVec F S64 .f32) (main_arg9 : FVec F S96x128 .f32) (main_arg10 : FVec F S128 .f32) (main_arg11 : FVec F S128x64 .f32) (main_arg12 : FVec F S64 .f32) (main_v13 : IVec S_ 1) (main_v16 : IVec S192x128 1) : IVec S_ 1 :=
  let main_c_5 : IVec S_ 1 := constantI S_ 1 1#1
  let main_v17 : IVec S_ 1 := (fun x v => Host.reduce IntOp.andi x v reducesTo_S192x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S800000x32 .f32) (main_arg2 : FVec F S50000x32 .f32) (main_arg3 : FVec F S192x128 .f32) (main_arg4 : FVec F S128 .f32) (main_arg5 : FVec F S128x128 .f32) (main_arg6 : FVec F S128 .f32) (main_arg7 : FVec F S128x64 .f32) (main_arg8 : FVec F S64 .f32) (main_arg9 : FVec F S96x128 .f32) (main_arg10 : FVec F S128 .f32) (main_arg11 : FVec F S128x64 .f32) (main_arg12 : FVec F S64 .f32) (main_arg13 : IVec S800000x2 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S50000x32 .f32 := Host.absf main_arg2
  let main_cst_2 : FVec F S_ .f32 := constant S_ .f32 0x7F800000#32
  let main_v10 : FVec F S50000x32 .f32 := broadcastInDim S50000x32 ![] bcast_S_S50000x32 main_cst_2
  let main_v11 : IVec S50000x32 1 := cmpf .olt main_v9 main_v10
  let main_c_3 : IVec S_ 1 := constantI S_ 1 1#1
  let main_v12 : IVec S_ 1 := (fun x v => Host.reduce IntOp.andi x v reducesTo_S50000x32_S_d0_1 h_S_) main_v11 main_c_3
  let main_v13 : IVec S_ 1 := andi main_v8 main_v12
  let main_v14 : FVec F S192x128 .f32 := Host.absf main_arg3
  let main_cst_4 : FVec F S_ .f32 := constant S_ .f32 0x7F800000#32
  let main_v15 : FVec F S192x128 .f32 := broadcastInDim S192x128 ![] bcast_S_S192x128 main_cst_4
  let main_v16 : IVec S192x128 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S800000x32 : Shape := ⟨2, ![800000, 32]⟩
abbrev S50000x32 : Shape := ⟨2, ![50000, 32]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x128 : Shape := ⟨2, ![96, 128]⟩
abbrev S800000x2 : Shape := ⟨2, ![800000, 2]⟩
abbrev S800000x1 : Shape := ⟨2, ![800000, 1]⟩
abbrev S800000 : Shape := ⟨1, ![800000]⟩
abbrev S_ : Shape := ⟨0, ![]⟩
abbrev S800000x64 : Shape := ⟨2, ![800000, 64]⟩
abbrev S800000x192 : Shape := ⟨2, ![800000, 192]⟩
abbrev S1x128 : Shape := ⟨2, ![1, 128]⟩
abbrev S1x64 : Shape := ⟨2, ![1, 64]⟩
abbrev S10000x192 : Shape := ⟨2, ![10000, 192]⟩
abbrev S10000x64 : Shape := ⟨2, ![10000, 64]⟩
abbrev S10000x128 : Shape := ⟨2, ![10000, 128]⟩
abbrev S5000x64 : Shape := ⟨2, ![5000, 64]⟩
abbrev S5000x32 : Shape := ⟨2, ![5000, 32]⟩
abbrev S5000x96 : Shape := ⟨2, ![5000, 96]⟩
abbrev S5000x128 : Shape := ⟨2, ![5000, 128]⟩

abbrev nBuf : Space → Nat
  | .hbm => 65
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S50000x32, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S96x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S800000x2, .i32⟩
  | .hbm, ⟨14, _⟩ => ⟨S800000x1, .i32⟩
  | .hbm, ⟨15, _⟩ => ⟨S800000, .i32⟩
  | .hbm, ⟨16, _⟩ => ⟨S800000x1, .i32⟩
  | .hbm, ⟨17, _⟩ => ⟨S800000, .i32⟩
  | .hbm, ⟨18, _⟩ => ⟨S50000x64, .bf16⟩
  | .hbm, ⟨19, _⟩ => ⟨S800000x32, .bf16⟩
  | .hbm, ⟨20, _⟩ => ⟨S50000x32, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x32, .bf16⟩
  | .hbm, ⟨48, _⟩ => ⟨S800000x192, .bf16⟩
  | .hbm, ⟨49, _⟩ => ⟨S192x128, .bf16⟩
  | .hbm, ⟨50, _⟩ => ⟨S128x128, .bf16⟩
  | .hbm, ⟨51, _⟩ => ⟨S128x64, .bf16⟩
  | .hbm, ⟨52, _⟩ => ⟨S1x128, .f32⟩
  | .hbm, ⟨53, _⟩ => ⟨S1x128, .f32⟩
  | .hbm, ⟨54, _⟩ => ⟨S1x64, .f32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S96x128, .bf16⟩
  | .hbm, ⟨61, _⟩ => ⟨S128x64, .bf16⟩
  | .hbm, ⟨62, _⟩ => ⟨S1x128, .f32⟩
  | .hbm, ⟨63, _⟩ => ⟨S1x64, .f32⟩
  | .hbm, ⟨64, _⟩ => ⟨S50000x64, .f32⟩
  | .local _ .vmem, ⟨0, _⟩ => ⟨S10000x192, .bf16⟩
  | .local _ .vmem, ⟨1, _⟩ => ⟨S10000x192, .bf16⟩
  | .local _ .vmem, ⟨2, _⟩ => ⟨S192x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S5000x64, .f32⟩
  | .local _ .vmem, ⟨11, _⟩ => ⟨S5000x64, .f32⟩
  | .local _ .vmem, ⟨12, _⟩ => ⟨S5000x32, .f32⟩
  | .local _ .vmem, ⟨13, _⟩ => ⟨S5000x32, .f32⟩
  | .local _ .vmem, ⟨14, _⟩ => ⟨S96x128, .bf16⟩
  | .local _ .vmem, ⟨15, _⟩ => ⟨S1x128, .f32⟩
  | .local _ .vmem, ⟨16, _⟩ => ⟨S128x64, .bf16⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x32_S800000x192_d1 : Shape.Concatenates [S800000x64, S800000x64, S800000x32, S800000x32] S800000x192 1
  shapeCasts_S128_S1x128 : S128.ShapeCasts S1x128
  shapeCasts_S64_S1x64 : S64.ShapeCasts S1x64
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  concatenates_S5000x64_S5000x32_S5000x96_d1 : Shape.Concatenates [S5000x64, S5000x32] S5000x96 1
  inb_S96x128_S96x128_0_0 : ∀ a, (![0, 0] : Fin 2 → Nat) a + S96x128.size a ≤ S96x128.size a
  h_S96x128 : 0 < S96x128.numel
  shapeCasts_S96x128_S96x128 : S96x128.ShapeCasts S96x128
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S50000x32_S800000x1_S800000x32_1_0_n_n_0_1_132_wf : GatherDims.WF S50000x32 S800000x1 S800000x32 [1] [0] [] [0] [] 1 ![1, 32]
  dot_S10000x192_S192x128_S10000x128_1_0_0_1_n_n_wf : DotDims.WF S10000x192 S192x128 S10000x128 [1] [0] [0] [1] [] []
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  scatter_S50000x64_S800000x1_S800000x64_1_0_0_1_wf : ScatterDims.WF S50000x64 S800000x1 S800000x64 [1] [0] [0] 1
  dot_S5000x96_S96x128_S5000x128_1_0_0_1_n_n_wf : DotDims.WF S5000x96 S96x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x192.size a ≤ S800000x192.size a
  hwx0_0 : ∀ i : grid0.Coords, EltTy.bits .bf16 = 32 ∨ (Rect.block (s := S800000x192) S10000x192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x128.size a ≤ S192x128.size a
  hwx0_1 : ∀ i : grid0.Coords, EltTy.bits .bf16 = 32 ∨ (Rect.block (s := S192x128) S192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S800000x64.size a
  hwx0_7 : ∀ i : grid0.Coords, EltTy.bits .f32 = 32 ∨ (Rect.block (s := S800000x64) S10000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x128.size a ≤ S96x128.size a
  hwx1_2 : ∀ i : grid1.Coords, EltTy.bits .bf16 = 32 ∨ (Rect.block (s := S96x128) S96x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .bf16 = 32 ∨ (Rect.block (s := S128x64) S128x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S10000x192_S192x128_S10000x128_1_0_0_1_n_n : DotDims S10000x192 S192x128 S10000x128 where
  lhsContracting := [1]
  rhsContracting := [0]
  lhsNonContracting := [0]
  rhsNonContracting := [1]
  lhsBatch := []
  rhsBatch := []
  wf := dot_S10000x192_S192x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x96_S96x128_S5000x128_1_0_0_1_n_n : DotDims S5000x96 S96x128 S5000x128 where
  lhsContracting := [1]
  rhsContracting := [0]
  lhsNonContracting := [0]
  rhsNonContracting := [1]
  lhsBatch := []
  rhsBatch := []
  wf := dot_S5000x96_S96x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v28) S10000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S96x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x32 : Shape := ⟨2, ![800000, 32]⟩
abbrev S50000x32 : Shape := ⟨2, ![50000, 32]⟩
abbrev S192x128 : Shape := ⟨2, ![192, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S96x128 : Shape := ⟨2, ![96, 128]⟩
abbrev S800000x2 : Shape := ⟨2, ![800000, 2]⟩
abbrev S800000x1 : Shape := ⟨2, ![800000, 1]⟩
abbrev S800000 : Shape := ⟨1, ![800000]⟩
abbrev S_ : Shape := ⟨0, ![]⟩
abbrev S800000x64 : Shape := ⟨2, ![800000, 64]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x96 : Shape := ⟨2, ![50000, 96]⟩
abbrev S50000x128 : Shape := ⟨2, ![50000, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x32, .f32⟩
  | .hbm, ⟨2, _⟩ => ⟨S50000x32, .f32⟩
  | .hbm, ⟨3, _⟩ => ⟨S192x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S96x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S800000x2, .i32⟩
  | .hbm, ⟨14, _⟩ => ⟨S800000x1, .i32⟩
  | .hbm, ⟨15, _⟩ => ⟨S800000, .i32⟩
  | .hbm, ⟨16, _⟩ => ⟨S800000x1, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x32, .f32⟩
  | .hbm, ⟨45, _⟩ => ⟨S800000x192, .f32⟩
  | .hbm, ⟨46, _⟩ => ⟨S800000x128, .f32⟩
  | .hbm, ⟨47, _⟩ => ⟨S1x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S800000x128, .f32⟩
  | .hbm, ⟨52, _⟩ => ⟨S800000x128, .f32⟩
  | .hbm, ⟨53, _⟩ => ⟨S800000x128, .f32⟩
  | .hbm, ⟨54, _⟩ => ⟨S1x128, .f32⟩
  | .hbm, ⟨55, _⟩ => ⟨S800000x128, .f32⟩
  | .hbm, ⟨56, _⟩ => ⟨S800000x128, .f32⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S800000x64, .f32⟩
  | .hbm, ⟨61, _⟩ => ⟨S1x64, .f32⟩
  | .hbm, ⟨62, _⟩ => ⟨S800000x64, .f32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S50000x96, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call0_cst : Ref sig .tc := ⟨.hbm, 50, rfl⟩
abbrev main_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call2_cst : Ref sig .tc := ⟨.hbm, 73, rfl⟩
abbrev main_call2_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x32_S800000x192_d1 : Shape.Concatenates [S800000x64, S800000x64, S800000x32, S800000x32] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x32_S50000x96_d1 : Shape.Concatenates [S50000x64, S50000x32] S50000x96 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  gather_S50000x32_S800000x1_S800000x32_1_0_n_n_0_1_132_wf : GatherDims.WF S50000x32 S800000x1 S800000x32 [1] [0] [] [0] [] 1 ![1, 32]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x96_S96x128_S50000x128_1_0_0_1_n_n_wf : DotDims.WF S50000x96 S96x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Kernel.MsgRegion.lean ====
import proofs.«161019_j82592221102879_1_alg».proof.Proof.Gen.Kernel.Launch
import proofs.«161019_j82592221102879_1_alg».proof.Proof.Gen.Kernel.Skeleton
import proofs.«161019_j82592221102879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Msg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The message network's launch (the first pallas_call), at entry contents `V`

Each of the eighty grid points takes ten thousand consecutive rows of the gathered edge inputs (192 columns) and the
three weight matrices and bias rows whole, and stores the ten thousand rows of 64 outputs whole.  The body reads
its seven inputs and (without using it) its output buffer, then overwrites the output buffer entirely, so what a
point leaves in the output buffer is one function of that point's input blocks. -/

variable (V : (c : Dev nD) → (b : Ref sig .tc) → Buf (Elt F) ((c : Thread nD τ).loc b))

/-- Window `w`'s block at grid point `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the block was fetched there or its
index did not move since the point before (the weights and biases have a constant block index). -/

theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_in4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_in5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem before_in6 {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole output block. -/
abbrev rOut : Rect S10000x64 := Rect.unit (s := S10000x64) ![0, 0] S10000x64.size inb_S10000x64_S10000x64_0_0

/-- What a point leaves in the output buffer, as a function of its seven input blocks: the single whole-block store
    of the three-layer network's value. -/
def outBlk (x0 : Vec F S10000x192 .bf16) (x1 : Vec F S192x128 .bf16) (x2 : Vec F S1x128 .f32) (x3 : Vec F S128x128 .bf16)
    (x4 : Vec F S1x128 .f32) (x5 : Vec F S128x64 .bf16) (x6 : Vec F S1x64 .f32) : Vec F S10000x64 .f32 :=
  View.canon [⟨rOut, k0_pay1
    (View.ld x0 (Rect.unit (s := S10000x192) ![0, 0] S10000x192.size inb_S10000x192_S10000x192_0_0))
    (View.ld x1 (Rect.unit (s := S192x128) ![0, 0] S192x128.size inb_S192x128_S192x128_0_0))
    (View.ld x2 (Rect.unit (s := S1x128) ![0, 0] S1x128.size inb_S1x128_S1x128_0_0))
    (View.ld x3 (Rect.unit (s := S128x128) ![0, 0] S128x128.size inb_S128x128_S128x128_0_0))
    (View.ld x4 (Rect.unit (s := S1x128) ![0, 0] S1x128.size inb_S1x128_S1x128_0_0))
    (View.ld x5 (Rect.unit (s := S128x64) ![0, 0] S128x64.size inb_S128x64_S128x64_0_0))
    (View.ld x6 (Rect.unit (s := S1x64) ![0, 0] S1x64.size inb_S1x64_S1x64_0_0))⟩]

/-- The single store covers the output block. -/
theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 4000000 in
/-- The body on whole staging buffers: the seven inputs at read contents `x0 … x6`, the output at anything; it ends
    with the inputs unchanged and the output at `outBlk` of the inputs. -/
theorem sound_kernel (c : Dev nD) (E : Set ℕ) (i : grid0.Coords)
    (arg1 : Memref sig .tc .vmem S10000x192 .bf16) (harg1 : arg1.IsWhole) (arg2 : Memref sig .tc .vmem S192x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x64 .bf16) (harg6 : arg6.IsWhole)
    (arg7 : Memref sig .tc .vmem S1x64 .f32) (harg7 : arg7.IsWhole) (arg8 : Memref sig .tc .vmem S10000x64 .f32) (harg8 : arg8.IsWhole)
    (x0 : Vec F S10000x192 .bf16) (x1 : Vec F S192x128 .bf16) (x2 : Vec F S1x128 .f32) (x3 : Vec F S128x128 .bf16)
    (x4 : Vec F S1x128 .f32) (x5 : Vec F S128x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__msg_mlp_kernel i arg1 harg1 arg2 harg2 arg3 harg3 arg4 harg4 arg5 harg5 arg6 harg6 arg7 harg7 arg8 harg8) K := by
  simp only [cc0__msg_mlp_kernel_eq_skeleton]; unfold cc0__msg_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-- The proof data of this launch on core `c`: the arrays as found; after the body each input's buffer still at
    its block and the output's at `outBlk` of the input blocks; nothing owed, full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = blk V c 6 t := by dsimp only [dat]
theorem after7 (c : Dev nD) (t : Fin cfg0.N) : (dat V c).after 7 t
    = outBlk (blk V c 0 t) (blk V c 1 t) (blk V c 2 t) (blk V c 3 t) (blk V c 4 t) (blk V c 5 t) (blk V c 6 t) := by dsimp only [dat]

theorem before0 (c : Dev nD) (t : Fin cfg0.N) (d) : (dat V c).before 0 t d = blk V c 0 t := before_in0 V (dat V c) (A_eq V c 0) (after0 V c) t d
theorem before1 (c : Dev nD) (t : Fin cfg0.N) (d) : (dat V c).before 1 t d = blk V c 1 t := before_in1 V (dat V c) (A_eq V c 1) (after1 V c) t d
theorem before2 (c : Dev nD) (t : Fin cfg0.N) (d) : (dat V c).before 2 t d = blk V c 2 t := before_in2 V (dat V c) (A_eq V c 2) (after2 V c) t d
theorem before3 (c : Dev nD) (t : Fin cfg0.N) (d) : (dat V c).before 3 t d = blk V c 3 t := before_in3 V (dat V c) (A_eq V c 3) (after3 V c) t d
theorem before4 (c : Dev nD) (t : Fin cfg0.N) (d) : (dat V c).before 4 t d = blk V c 4 t := before_in4 V (dat V c) (A_eq V c 4) (after4 V c) t d
theorem before5 (c : Dev nD) (t : Fin cfg0.N) (d) : (dat V c).before 5 t d = blk V c 5 t := before_in5 V (dat V c) (A_eq V c 5) (after5 V c) t d
theorem before6 (c : Dev nD) (t : Fin cfg0.N) (d) : (dat V c).before 6 t d = blk V c 6 t := before_in6 V (dat V c) (A_eq V c 6) (after6 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Msg

end
-- ==== Proof.Kernel.UpdRegion.lean ====
import proofs.«161019_j82592221102879_1_alg».proof.Proof.Gen.Kernel.Launch
import proofs.«161019_j82592221102879_1_alg».proof.Proof.Gen.Kernel.Skeleton
import proofs.«161019_j82592221102879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Upd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The update network's launch (the second pallas_call), at entry contents `V`

Each of the ten grid points takes five thousand consecutive rows of the node features (64 columns) and of the
spacetime embeddings (32 columns) and the two weight matrices and bias rows whole, and stores the five thousand rows
of 64 outputs whole: the node features plus the two-layer network of the two inputs side by side.  The body reads
its six inputs and (without using it) its output buffer, then overwrites the output buffer entirely. -/

variable (V : (c : Dev nD) → (b : Ref sig .tc) → Buf (Elt F) ((c : Thread nD τ).loc b))

/-- Window `w`'s block at grid point `t`, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the block was fetched there or its
index did not move since the point before. -/

theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_in4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_in5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole output block. -/
abbrev rOut : Rect S5000x64 := Rect.unit (s := S5000x64) ![0, 0] S5000x64.size inb_S5000x64_S5000x64_0_0

/-- What a point leaves in the output buffer, as a function of its six input blocks: the single whole-block store. -/
def outBlk (x0 : Vec F S5000x64 .f32) (x1 : Vec F S5000x32 .f32) (x2 : Vec F S96x128 .bf16) (x3 : Vec F S1x128 .f32)
    (x4 : Vec F S128x64 .bf16) (x5 : Vec F S1x64 .f32) : Vec F S5000x64 .f32 :=
  View.canon [⟨rOut, k1_pay1
    (View.ld x0 (Rect.unit (s := S5000x64) ![0, 0] S5000x64.size inb_S5000x64_S5000x64_0_0))
    (View.ld x1 (Rect.unit (s := S5000x32) ![0, 0] S5000x32.size inb_S5000x32_S5000x32_0_0))
    (View.ld x2 (Rect.unit (s := S96x128) ![0, 0] S96x128.size inb_S96x128_S96x128_0_0))
    (View.ld x3 (Rect.unit (s := S1x128) ![0, 0] S1x128.size inb_S1x128_S1x128_0_0))
    (View.ld x4 (Rect.unit (s := S128x64) ![0, 0] S128x64.size inb_S128x64_S128x64_0_0))
    (View.ld x5 (Rect.unit (s := S1x64) ![0, 0] S1x64.size inb_S1x64_S1x64_0_0))⟩]

/-- The single store covers the output block. -/
theorem cover_out (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 4000000 in
/-- The body on whole staging buffers: the six inputs at read contents `x0 … x5`, the output at anything; it ends
    with the inputs unchanged and the output at `outBlk` of the inputs. -/
theorem sound_kernel (c : Dev nD) (E : Set ℕ) (i : grid1.Coords)
    (arg1 : Memref sig .tc .vmem S5000x64 .f32) (harg1 : arg1.IsWhole) (arg2 : Memref sig .tc .vmem S5000x32 .f32) (harg2 : arg2.IsWhole)
    (arg3 : Memref sig .tc .vmem S96x128 .bf16) (harg3 : arg3.IsWhole) (arg4 : Memref sig .tc .vmem S1x128 .f32) (harg4 : arg4.IsWhole)
    (arg5 : Memref sig .tc .vmem S128x64 .bf16) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 : Vec F S5000x32 .f32) (x2 : Vec F S96x128 .bf16) (x3 : Vec F S1x128 .f32)
    (x4 : Vec F S128x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The proof data of this launch on core `c`: the arrays as found; after the body each input's buffer still at
    its block and the output's at `outBlk` of the input blocks; nothing owed, full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outBlk (blk V c 0 t) (blk V c 1 t) (blk V c 2 t) (blk V c 3 t) (blk V c 4 t) (blk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t
    = outBlk (blk V c 0 t) (blk V c 1 t) (blk V c 2 t) (blk V c 3 t) (blk V c 4 t) (blk V c 5 t) := by dsimp only [dat]

theorem before0 (c : Dev nD) (t : Fin cfg1.N) (d) : (dat V c).before 0 t d = blk V c 0 t := before_in0 V (dat V c) (A_eq V c 0) (after0 V c) t d
theorem before1 (c : Dev nD) (t : Fin cfg1.N) (d) : (dat V c).before 1 t d = blk V c 1 t := before_in1 V (dat V c) (A_eq V c 1) (after1 V c) t d
theorem before2 (c : Dev nD) (t : Fin cfg1.N) (d) : (dat V c).before 2 t d = blk V c 2 t := before_in2 V (dat V c) (A_eq V c 2) (after2 V c) t d
theorem before3 (c : Dev nD) (t : Fin cfg1.N) (d) : (dat V c).before 3 t d = blk V c 3 t := before_in3 V (dat V c) (A_eq V c 3) (after3 V c) t d
theorem before4 (c : Dev nD) (t : Fin cfg1.N) (d) : (dat V c).before 4 t d = blk V c 4 t := before_in4 V (dat V c) (A_eq V c 4) (after4 V c) t d
theorem before5 (c : Dev nD) (t : Fin cfg1.N) (d) : (dat V c).before 5 t d = blk V c 5 t := before_in5 V (dat V c) (A_eq V c 5) (after5 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Upd

end
-- ==== Proof.Kernel.WholeRun.lean ====
import proofs.«161019_j82592221102879_1_alg».proof.Proof.Gen.Kernel.Launch
import proofs.«161019_j82592221102879_1_alg».proof.Proof.Gen.Kernel.Skeleton
import proofs.«161019_j82592221102879_1_alg».proof.Proof.Gen.Kernel.Points
import proofs.«161019_j82592221102879_1_alg».proof.Proof.Gen.Kernel.Regions
import proofs.«161019_j82592221102879_1_alg».proof.Proof.Kernel.MsgRegion
import proofs.«161019_j82592221102879_1_alg».proof.Proof.Kernel.UpdRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole program: host operations, the message launch, host operations, the update launch

The contents of the core's buffers are followed from the launch memory through the four items: a stretch of host
operations rewrites the buffers it names and leaves the rest; a launch leaves its output array at what its
write-backs make of it and every other buffer as it found it.  No item writes an argument array, so each ends as
launched; the two results are read off the last contents. -/

variable (m : (ℓ : Loc nD τ sig) → Buf (Elt F) ℓ)

/-- After the first host stretch (the message launch's entry). -/
abbrev W1 : Dev nD → Valuation τ sig (Elt F) := fun c => V1 m c
/-- The same, read at the TensorCore's references. -/
abbrev E1 : (c : Dev nD) → (b : Ref sig .tc) → Buf (Elt F) ((c : Thread nD τ).loc b) := fun c b => W1 m c b
/-- After the message launch: its arrays at what the pipeline leaves, every other buffer as entered. -/
def W2 (c : Dev nD) : Valuation τ sig (Elt F) :=
  Pipeline.withArrays spec0 c (W1 m c) fun w => (Msg.dat (E1 m) c).arrAt w cfg0.N
theorem W2_arr (c : Dev nD) (w : Fin cfg0.W) :
    W2 m c (Proc.devRef .tc (Pipeline.arrRef spec0 w)) = (Msg.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (Msg.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the update launch's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h
/-- After the update launch: its arrays at what the pipeline leaves, every other buffer as entered. -/
def W4 (c : Dev nD) : Valuation τ sig (Elt F) :=
  Pipeline.withArrays spec1 c (W3 m c) fun w => (Upd.dat (E3 m) c).arrAt w cfg1.N
theorem W4_arr (c : Dev nD) (w : Fin cfg1.W) :
    W4 m c (Proc.devRef .tc (Pipeline.arrRef spec1 w)) = (Upd.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (Upd.dat (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The arguments end as launched: no host operation writes one and no launch's output array is one -/

theorem W4_main_arg0 (c : Dev nD) : W4 m c (Proc.devRef .tc main_arg0) = m ((c : Thread nD τ).loc main_arg0) :=
  ((W4_arr m c 0).trans (((Upd.dat (E3 m) c).arrAt_in 0 rfl _).trans (Upd.A_eq (E3 m) c 0))).trans <| (W3_of m c main_arg0 (by decide)).trans <|
    (W2_of_ne m c main_arg0 (by decide)).trans <| (V1_of m c main_arg0 (by decide)).trans rfl

theorem W4_main_arg1 (c : Dev nD) : W4 m c (Proc.devRef .tc main_arg1) = m ((c : Thread nD τ).loc main_arg1) :=
  (W4_of_ne m c main_arg1 (by decide)).trans <| (W3_of m c main_arg1 (by decide)).trans <|
    (W2_of_ne m c main_arg1 (by decide)).trans <| (V1_of m c main_arg1 (by decide)).trans rfl

theorem W4_main_arg2 (c : Dev nD) : W4 m c (Proc.devRef .tc main_arg2) = m ((c : Thread nD τ).loc main_arg2) :=
  ((W4_arr m c 1).trans (((Upd.dat (E3 m) c).arrAt_in 1 rfl _).trans (Upd.A_eq (E3 m) c 1))).trans <| (W3_of m c main_arg2 (by decide)).trans <|
    (W2_of_ne m c main_arg2 (by decide)).trans <| (V1_of m c main_arg2 (by decide)).trans rfl

theorem W4_main_arg3 (c : Dev nD) : W4 m c (Proc.devRef .tc main_arg3) = m ((c : Thread nD τ).loc main_arg3) :=
  (W4_of_ne m c main_arg3 (by decide)).trans <| (W3_of m c main_arg3 (by decide)).trans <|
    (W2_of_ne m c main_arg3 (by decide)).trans <| (V1_of m c main_arg3 (by decide)).trans rfl

theorem W4_main_arg4 (c : Dev nD) : W4 m c (Proc.devRef .tc main_arg4) = m ((c : Thread nD τ).loc main_arg4) :=
  (W4_of_ne m c main_arg4 (by decide)).trans <| (W3_of m c main_arg4 (by decide)).trans <|
    (W2_of_ne m c main_arg4 (by decide)).trans <| (V1_of m c main_arg4 (by decide)).trans rfl

theorem W4_main_arg5 (c : Dev nD) : W4 m c (Proc.devRef .tc main_arg5) = m ((c : Thread nD τ).loc main_arg5) :=
  (W4_of_ne m c main_arg5 (by decide)).trans <| (W3_of m c main_arg5 (by decide)).trans <|
    (W2_of_ne m c main_arg5 (by decide)).trans <| (V1_of m c main_arg5 (by decide)).trans rfl

theorem W4_main_arg6 (c : Dev nD) : W4 m c (Proc.devRef .tc main_arg6) = m ((c : Thread nD τ).loc main_arg6) :=
  (W4_of_ne m c main_arg6 (by decide)).trans <| (W3_of m c main_arg6 (by decide)).trans <|
    (W2_of_ne m c main_arg6 (by decide)).trans <| (V1_of m c main_arg6 (by decide)).trans rfl

theorem W4_main_arg7 (c : Dev nD) : W4 m c (Proc.devRef .tc main_arg7) = m ((c : Thread nD τ).loc main_arg7) :=
  (W4_of_ne m c main_arg7 (by decide)).trans <| (W3_of m c main_arg7 (by decide)).trans <|
    (W2_of_ne m c main_arg7 (by decide)).trans <| (V1_of m c main_arg7 (by decide)).trans rfl

theorem W4_main_arg8 (c : Dev nD) : W4 m c (Proc.devRef .tc main_arg8) = m ((c : Thread nD τ).loc main_arg8) :=
  (W4_of_ne m c main_arg8 (by decide)).trans <| (W3_of m c main_arg8 (by decide)).trans <|
    (W2_of_ne m c main_arg8 (by decide)).trans <| (V1_of m c main_arg8 (by decide)).trans rfl

theorem W4_main_arg9 (c : Dev nD) : W4 m c (Proc.devRef .tc main_arg9) = m ((c : Thread nD τ).loc main_arg9) :=
  (W4_of_ne m c main_arg9 (by decide)).trans <| (W3_of m c main_arg9 (by decide)).trans <|
    (W2_of_ne m c main_arg9 (by decide)).trans <| (V1_of m c main_arg9 (by decide)).trans rfl

theorem W4_main_arg10 (c : Dev nD) : W4 m c (Proc.devRef .tc main_arg10) = m ((c : Thread nD τ).loc main_arg10) :=
  (W4_of_ne m c main_arg10 (by decide)).trans <| (W3_of m c main_arg10 (by decide)).trans <|
    (W2_of_ne m c main_arg10 (by decide)).trans <| (V1_of m c main_arg10 (by decide)).trans rfl

theorem W4_main_arg11 (c : Dev nD) : W4 m c (Proc.devRef .tc main_arg11) = m ((c : Thread nD τ).loc main_arg11) :=
  (W4_of_ne m c main_arg11 (by decide)).trans <| (W3_of m c main_arg11 (by decide)).trans <|
    (W2_of_ne m c main_arg11 (by decide)).trans <| (V1_of m c main_arg11 (by decide)).trans rfl

theorem W4_main_arg12 (c : Dev nD) : W4 m c (Proc.devRef .tc main_arg12) = m ((c : Thread nD τ).loc main_arg12) :=
  (W4_of_ne m c main_arg12 (by decide)).trans <| (W3_of m c main_arg12 (by decide)).trans <|
    (W2_of_ne m c main_arg12 (by decide)).trans <| (V1_of m c main_arg12 (by decide)).trans rfl

theorem W4_main_arg13 (c : Dev nD) : W4 m c (Proc.devRef .tc main_arg13) = m ((c : Thread nD τ).loc main_arg13) :=
  (W4_of_ne m c main_arg13 (by decide)).trans <| (W3_of m c main_arg13 (by decide)).trans <|
    (W2_of_ne m c main_arg13 (by decide)).trans <| (V1_of m c main_arg13 (by decide)).trans rfl

/-! ## The proof data family and the thread state -/

/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => Msg.dat (E1 m) c
  | ⟨1, _⟩ => fun c => Upd.dat (E3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- The message launch over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Msg.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The update launch over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Upd.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four items in order. -/
abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer of every core at the last contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c),
     (h c _ (mem_uc main_arg10 (by decide))).trans (W4_main_arg10 m c),
     (h c _ (mem_uc main_arg11 (by decide))).trans (W4_main_arg11 m c),
     (h c _ (mem_uc main_arg12 (by decide))).trans (W4_main_arg12 m c),
     (h c _ (mem_uc main_arg13 (by decide))).trans (W4_main_arg13 m c)⟩) (run_all m ρ)

end Cert.Kernel.Whole

end
-- ==== Proof.KernelIdeal.MsgRegion.lean ====
import proofs.«161019_j82592221102879_1_alg».proof.Proof.Gen.KernelIdeal.Launch
import proofs.«161019_j82592221102879_1_alg».proof.Proof.Gen.KernelIdeal.Skeleton
import proofs.«161019_j82592221102879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Msg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The message network's launch (the first pallas_call), at entry contents `V`

Each of the eighty grid points takes ten thousand consecutive rows of the gathered edge inputs (192 columns) and the
three weight matrices and bias rows whole, and stores the ten thousand rows of 64 outputs whole.  The body reads
its seven inputs and (without using it) its output buffer, then overwrites the output buffer entirely, so what a
point leaves in the output buffer is one function of that point's input blocks. -/

variable (V : (c : Dev nD) → (b : Ref sig .tc) → Buf (Elt F) ((c : Thread nD τ).loc b))

/-- Window `w`'s block at grid point `t`, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, whether the block was fetched there or its
index did not move since the point before (the weights and biases have a constant block index). -/

theorem before_in0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_in1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_in2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_in3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_in4 {c : Dev nD} (dat : Dat τ (Elt F) Unit ℕ (UR sig nD τ) ℕ cfg0 c) (hA : dat.A 4 = V c (Pipeline.arrRef spec0 4))
    (hafter : ∀ t, dat.after 4 t = blk V c 4 t) (t : Fin cfg0.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_in5 {c : Dev nD} (dat : Dat τ (Elt F) Unit ℕ (UR sig nD τ) ℕ cfg0 c) (hA : dat.A 5 = V c (Pipeline.arrRef spec0 5))
    (hafter : ∀ t, dat.after 5 t = blk V c 5 t) (t : Fin cfg0.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem before_in6 {c : Dev nD} (dat : Dat τ (Elt F) Unit ℕ (UR sig nD τ) ℕ cfg0 c) (hA : dat.A 6 = V c (Pipeline.arrRef spec0 6))
    (hafter : ∀ t, dat.after 6 t = blk V c 6 t) (t : Fin cfg0.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole output block. -/
abbrev rOut : Rect S10000x64 := Rect.unit (s := S10000x64) ![0, 0] S10000x64.size inb_S10000x64_S10000x64_0_0

/-- What a point leaves in the output buffer, as a function of its seven input blocks: the single whole-block store
    of the three-layer network's value. -/
def outBlk (x0 : Vec F S10000x192 .bf16) (x1 : Vec F S192x128 .bf16) (x2 : Vec F S1x128 .f32) (x3 : Vec F S128x128 .bf16)
    (x4 : Vec F S1x128 .f32) (x5 : Vec F S128x64 .bf16) (x6 : Vec F S1x64 .f32) : Vec F S10000x64 .f32 :=
  View.canon [⟨rOut, k0_pay1
    (View.ld x0 (Rect.unit (s := S10000x192) ![0, 0] S10000x192.size inb_S10000x192_S10000x192_0_0))
    (View.ld x1 (Rect.unit (s := S192x128) ![0, 0] S192x128.size inb_S192x128_S192x128_0_0))
    (View.ld x2 (Rect.unit (s := S1x128) ![0, 0] S1x128.size inb_S1x128_S1x128_0_0))
    (View.ld x3 (Rect.unit (s := S128x128) ![0, 0] S128x128.size inb_S128x128_S128x128_0_0))
    (View.ld x4 (Rect.unit (s := S1x128) ![0, 0] S1x128.size inb_S1x128_S1x128_0_0))
    (View.ld x5 (Rect.unit (s := S128x64) ![0, 0] S128x64.size inb_S128x64_S128x64_0_0))
    (View.ld x6 (Rect.unit (s := S1x64) ![0, 0] S1x64.size inb_S1x64_S1x64_0_0))⟩]

/-- The single store covers the output block. -/
theorem cover_out (p0 : Vec F S10000x64 .f32) (y : S10000x64.Idx) :
    ∃ pc ∈ ([⟨rOut, p0⟩] : List (View.Piece (Elt F) S10000x64 .f32)), y ∈ pc.1.set :=
  View.cover_of_tiled [⟨rOut, p0⟩] S10000x64.size (by rfl) y

set_option maxHeartbeats 4000000 in
/-- The body on whole staging buffers: the seven inputs at read contents `x0 … x6`, the output at anything; it ends
    with the inputs unchanged and the output at `outBlk` of the inputs. -/
theorem sound_kernel (c : Dev nD) (E : Set ℕ) (i : grid0.Coords)
    (arg1 : Memref sig .tc .vmem S10000x192 .bf16) (harg1 : arg1.IsWhole) (arg2 : Memref sig .tc .vmem S192x128 .bf16) (harg2 : arg2.IsWhole)
    (arg3 : Memref sig .tc .vmem S1x128 .f32) (harg3 : arg3.IsWhole) (arg4 : Memref sig .tc .vmem S128x128 .bf16) (harg4 : arg4.IsWhole)
    (arg5 : Memref sig .tc .vmem S1x128 .f32) (harg5 : arg5.IsWhole) (arg6 : Memref sig .tc .vmem S128x64 .bf16) (harg6 : arg6.IsWhole)
    (arg7 : Memref sig .tc .vmem S1x64 .f32) (harg7 : arg7.IsWhole) (arg8 : Memref sig .tc .vmem S10000x64 .f32) (harg8 : arg8.IsWhole)
    (x0 : Vec F S10000x192 .bf16) (x1 : Vec F S192x128 .bf16) (x2 : Vec F S1x128 .f32) (x3 : Vec F S128x128 .bf16)
    (x4 : Vec F S1x128 .f32) (x5 : Vec F S128x64 .bf16) (x6 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__msg_mlp_kernel i arg1 harg1 arg2 harg2 arg3 harg3 arg4 harg4 arg5 harg5 arg6 harg6 arg7 harg7 arg8 harg8) K := by
  simp only [cc0__msg_mlp_kernel_eq_skeleton]; unfold cc0__msg_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

/-- The proof data of this launch on core `c`: the arrays as found; after the body each input's buffer still at
    its block and the output's at `outBlk` of the input blocks; nothing owed, full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => outBlk (blk V c 0 t) (blk V c 1 t) (blk V c 2 t) (blk V c 3 t) (blk V c 4 t) (blk V c 5 t) (blk V c 6 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = blk V c 6 t := by dsimp only [dat]
theorem after7 (c : Dev nD) (t : Fin cfg0.N) : (dat V c).after 7 t
    = outBlk (blk V c 0 t) (blk V c 1 t) (blk V c 2 t) (blk V c 3 t) (blk V c 4 t) (blk V c 5 t) (blk V c 6 t) := by dsimp only [dat]

theorem before0 (c : Dev nD) (t : Fin cfg0.N) (d) : (dat V c).before 0 t d = blk V c 0 t := before_in0 V (dat V c) (A_eq V c 0) (after0 V c) t d
theorem before1 (c : Dev nD) (t : Fin cfg0.N) (d) : (dat V c).before 1 t d = blk V c 1 t := before_in1 V (dat V c) (A_eq V c 1) (after1 V c) t d
theorem before2 (c : Dev nD) (t : Fin cfg0.N) (d) : (dat V c).before 2 t d = blk V c 2 t := before_in2 V (dat V c) (A_eq V c 2) (after2 V c) t d
theorem before3 (c : Dev nD) (t : Fin cfg0.N) (d) : (dat V c).before 3 t d = blk V c 3 t := before_in3 V (dat V c) (A_eq V c 3) (after3 V c) t d
theorem before4 (c : Dev nD) (t : Fin cfg0.N) (d) : (dat V c).before 4 t d = blk V c 4 t := before_in4 V (dat V c) (A_eq V c 4) (after4 V c) t d
theorem before5 (c : Dev nD) (t : Fin cfg0.N) (d) : (dat V c).before 5 t d = blk V c 5 t := before_in5 V (dat V c) (A_eq V c 5) (after5 V c) t d
theorem before6 (c : Dev nD) (t : Fin cfg0.N) (d) : (dat V c).before 6 t d = blk V c 6 t := before_in6 V (dat V c) (A_eq V c 6) (after6 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (blk V c 0 t) (blk V c 1 t) (blk V c 2 t) (blk V c 3 t) (blk V c 4 t) (blk V c 5 t) (blk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Msg

end
-- ==== Proof.KernelIdeal.UpdRegion.lean ====
import proofs.«161019_j82592221102879_1_alg».proof.Proof.Gen.KernelIdeal.Launch
import proofs.«161019_j82592221102879_1_alg».proof.Proof.Gen.KernelIdeal.Skeleton
import proofs.«161019_j82592221102879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Upd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The update network's launch (the second pallas_call), at entry contents `V`

Each of the ten grid points takes five thousand consecutive rows of the node features (64 columns) and of the
spacetime embeddings (32 columns) and the two weight matrices and bias rows whole, and stores the five thousand rows
of 64 outputs whole: the node features plus the two-layer network of the two inputs side by side.  The body reads
its six inputs and (without using it) its output buffer, then overwrites the output buffer entirely. -/

variable (V : (c : Dev nD) → (b : Ref sig .tc) → Buf (Elt F) ((c : Thread nD τ).loc b))

/-- Window `w`'s block at grid point `t`, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, whether the block was fetched there or its
index did not move since the point before. -/

theorem before_in0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_in1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_in2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_in3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_in4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_in5 {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The one rectangle the body stores through: the whole output block. -/
abbrev rOut : Rect S5000x64 := Rect.unit (s := S5000x64) ![0, 0] S5000x64.size inb_S5000x64_S5000x64_0_0

/-- What a point leaves in the output buffer, as a function of its six input blocks: the single whole-block store. -/
def outBlk (x0 : Vec F S5000x64 .f32) (x1 : Vec F S5000x32 .f32) (x2 : Vec F S96x128 .bf16) (x3 : Vec F S1x128 .f32)
    (x4 : Vec F S128x64 .bf16) (x5 : Vec F S1x64 .f32) : Vec F S5000x64 .f32 :=
  View.canon [⟨rOut, k1_pay1
    (View.ld x0 (Rect.unit (s := S5000x64) ![0, 0] S5000x64.size inb_S5000x64_S5000x64_0_0))
    (View.ld x1 (Rect.unit (s := S5000x32) ![0, 0] S5000x32.size inb_S5000x32_S5000x32_0_0))
    (View.ld x2 (Rect.unit (s := S96x128) ![0, 0] S96x128.size inb_S96x128_S96x128_0_0))
    (View.ld x3 (Rect.unit (s := S1x128) ![0, 0] S1x128.size inb_S1x128_S1x128_0_0))
    (View.ld x4 (Rect.unit (s := S128x64) ![0, 0] S128x64.size inb_S128x64_S128x64_0_0))
    (View.ld x5 (Rect.unit (s := S1x64) ![0, 0] S1x64.size inb_S1x64_S1x64_0_0))⟩]

/-- The single store covers the output block. -/
theorem cover_out (p0 : Vec F S5000x64 .f32) (y : S5000x64.Idx) :
    ∃ pc ∈ ([⟨rOut, p0⟩] : List (View.Piece (Elt F) S5000x64 .f32)), y ∈ pc.1.set :=
  View.cover_of_tiled [⟨rOut, p0⟩] S5000x64.size (by rfl) y

set_option maxHeartbeats 4000000 in
/-- The body on whole staging buffers: the six inputs at read contents `x0 … x5`, the output at anything; it ends
    with the inputs unchanged and the output at `outBlk` of the inputs. -/
theorem sound_kernel (c : Dev nD) (E : Set ℕ) (i : grid1.Coords)
    (arg1 : Memref sig .tc .vmem S5000x64 .f32) (harg1 : arg1.IsWhole) (arg2 : Memref sig .tc .vmem S5000x32 .f32) (harg2 : arg2.IsWhole)
    (arg3 : Memref sig .tc .vmem S96x128 .bf16) (harg3 : arg3.IsWhole) (arg4 : Memref sig .tc .vmem S1x128 .f32) (harg4 : arg4.IsWhole)
    (arg5 : Memref sig .tc .vmem S128x64 .bf16) (harg5 : arg5.IsWhole) (arg6 : Memref sig .tc .vmem S1x64 .f32) (harg6 : arg6.IsWhole)
    (arg7 : Memref sig .tc .vmem S5000x64 .f32) (harg7 : arg7.IsWhole)
    (x0 : Vec F S5000x64 .f32) (x1 : Vec F S5000x32 .f32) (x2 : Vec F S96x128 .bf16) (x3 : Vec F S1x128 .f32)
    (x4 : Vec F S128x64 .bf16) (x5 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E
          (cc1__update_kernel i arg1 harg1 arg2 harg2 arg3 harg3 arg4 harg4 arg5 harg5 arg6 harg6 arg7 harg7) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _)

/-- The proof data of this launch on core `c`: the arrays as found; after the body each input's buffer still at
    its block and the output's at `outBlk` of the input blocks; nothing owed, full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outBlk (blk V c 0 t) (blk V c 1 t) (blk V c 2 t) (blk V c 3 t) (blk V c 4 t) (blk V c 5 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t
    = outBlk (blk V c 0 t) (blk V c 1 t) (blk V c 2 t) (blk V c 3 t) (blk V c 4 t) (blk V c 5 t) := by dsimp only [dat]

theorem before0 (c : Dev nD) (t : Fin cfg1.N) (d) : (dat V c).before 0 t d = blk V c 0 t := before_in0 V (dat V c) (A_eq V c 0) (after0 V c) t d
theorem before1 (c : Dev nD) (t : Fin cfg1.N) (d) : (dat V c).before 1 t d = blk V c 1 t := before_in1 V (dat V c) (A_eq V c 1) (after1 V c) t d
theorem before2 (c : Dev nD) (t : Fin cfg1.N) (d) : (dat V c).before 2 t d = blk V c 2 t := before_in2 V (dat V c) (A_eq V c 2) (after2 V c) t d
theorem before3 (c : Dev nD) (t : Fin cfg1.N) (d) : (dat V c).before 3 t d = blk V c 3 t := before_in3 V (dat V c) (A_eq V c 3) (after3 V c) t d
theorem before4 (c : Dev nD) (t : Fin cfg1.N) (d) : (dat V c).before 4 t d = blk V c 4 t := before_in4 V (dat V c) (A_eq V c 4) (after4 V c) t d
theorem before5 (c : Dev nD) (t : Fin cfg1.N) (d) : (dat V c).before 5 t d = blk V c 5 t := before_in5 V (dat V c) (A_eq V c 5) (after5 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Upd

end
-- ==== Proof.KernelIdeal.WholeRun.lean ====
import proofs.«161019_j82592221102879_1_alg».proof.Proof.Gen.KernelIdeal.Launch
import proofs.«161019_j82592221102879_1_alg».proof.Proof.Gen.KernelIdeal.Skeleton
import proofs.«161019_j82592221102879_1_alg».proof.Proof.Gen.KernelIdeal.Points
import proofs.«161019_j82592221102879_1_alg».proof.Proof.Gen.KernelIdeal.Regions
import proofs.«161019_j82592221102879_1_alg».proof.Proof.KernelIdeal.MsgRegion
import proofs.«161019_j82592221102879_1_alg».proof.Proof.KernelIdeal.UpdRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole program: host operations, the message launch, host operations, the update launch

The contents of the core's buffers are followed from the launch memory through the four items: a stretch of host
operations rewrites the buffers it names and leaves the rest; a launch leaves its output array at what its
write-backs make of it and every other buffer as it found it.  No item writes an argument array, so each ends as
launched; the two results are read off the last contents. -/

variable (m : (ℓ : Loc nD τ sig) → Buf (Elt F) ℓ)

/-- After the first host stretch (the message launch's entry). -/
abbrev W1 : Dev nD → Valuation τ sig (Elt F) := fun c => V1 m c
/-- The same, read at the TensorCore's references. -/
abbrev E1 : (c : Dev nD) → (b : Ref sig .tc) → Buf (Elt F) ((c : Thread nD τ).loc b) := fun c b => W1 m c b
/-- After the message launch: its arrays at what the pipeline leaves, every other buffer as entered. -/
def W2 (c : Dev nD) : Valuation τ sig (Elt F) :=
  Pipeline.withArrays spec0 c (W1 m c) fun w => (Msg.dat (E1 m) c).arrAt w cfg0.N
theorem W2_arr (c : Dev nD) (w : Fin cfg0.W) :
    W2 m c (Proc.devRef .tc (Pipeline.arrRef spec0 w)) = (Msg.dat (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (Msg.dat (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the update launch's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
theorem W3_of (c : Dev nD) (r : Ref sig .tc) (h : r ∉ hostOps1_W) : W3 m c (Proc.devRef .tc r) = W2 m c (Proc.devRef .tc r) :=
  StableHlo.after_of_writes_sub hostOps1 _ hostOps1_writes h
/-- After the update launch: its arrays at what the pipeline leaves, every other buffer as entered. -/
def W4 (c : Dev nD) : Valuation τ sig (Elt F) :=
  Pipeline.withArrays spec1 c (W3 m c) fun w => (Upd.dat (E3 m) c).arrAt w cfg1.N
theorem W4_arr (c : Dev nD) (w : Fin cfg1.W) :
    W4 m c (Proc.devRef .tc (Pipeline.arrRef spec1 w)) = (Upd.dat (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (Upd.dat (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-! ## The arguments end as launched: no host operation writes one and no launch's output array is one -/

theorem W4_main_arg0 (c : Dev nD) : W4 m c (Proc.devRef .tc main_arg0) = m ((c : Thread nD τ).loc main_arg0) :=
  ((W4_arr m c 0).trans (((Upd.dat (E3 m) c).arrAt_in 0 rfl _).trans (Upd.A_eq (E3 m) c 0))).trans <| (W3_of m c main_arg0 (by decide)).trans <|
    (W2_of_ne m c main_arg0 (by decide)).trans <| (V1_of m c main_arg0 (by decide)).trans rfl

theorem W4_main_arg1 (c : Dev nD) : W4 m c (Proc.devRef .tc main_arg1) = m ((c : Thread nD τ).loc main_arg1) :=
  (W4_of_ne m c main_arg1 (by decide)).trans <| (W3_of m c main_arg1 (by decide)).trans <|
    (W2_of_ne m c main_arg1 (by decide)).trans <| (V1_of m c main_arg1 (by decide)).trans rfl

theorem W4_main_arg2 (c : Dev nD) : W4 m c (Proc.devRef .tc main_arg2) = m ((c : Thread nD τ).loc main_arg2) :=
  ((W4_arr m c 1).trans (((Upd.dat (E3 m) c).arrAt_in 1 rfl _).trans (Upd.A_eq (E3 m) c 1))).trans <| (W3_of m c main_arg2 (by decide)).trans <|
    (W2_of_ne m c main_arg2 (by decide)).trans <| (V1_of m c main_arg2 (by decide)).trans rfl

theorem W4_main_arg3 (c : Dev nD) : W4 m c (Proc.devRef .tc main_arg3) = m ((c : Thread nD τ).loc main_arg3) :=
  (W4_of_ne m c main_arg3 (by decide)).trans <| (W3_of m c main_arg3 (by decide)).trans <|
    (W2_of_ne m c main_arg3 (by decide)).trans <| (V1_of m c main_arg3 (by decide)).trans rfl

theorem W4_main_arg4 (c : Dev nD) : W4 m c (Proc.devRef .tc main_arg4) = m ((c : Thread nD τ).loc main_arg4) :=
  (W4_of_ne m c main_arg4 (by decide)).trans <| (W3_of m c main_arg4 (by decide)).trans <|
    (W2_of_ne m c main_arg4 (by decide)).trans <| (V1_of m c main_arg4 (by decide)).trans rfl

theorem W4_main_arg5 (c : Dev nD) : W4 m c (Proc.devRef .tc main_arg5) = m ((c : Thread nD τ).loc main_arg5) :=
  (W4_of_ne m c main_arg5 (by decide)).trans <| (W3_of m c main_arg5 (by decide)).trans <|
    (W2_of_ne m c main_arg5 (by decide)).trans <| (V1_of m c main_arg5 (by decide)).trans rfl

theorem W4_main_arg6 (c : Dev nD) : W4 m c (Proc.devRef .tc main_arg6) = m ((c : Thread nD τ).loc main_arg6) :=
  (W4_of_ne m c main_arg6 (by decide)).trans <| (W3_of m c main_arg6 (by decide)).trans <|
    (W2_of_ne m c main_arg6 (by decide)).trans <| (V1_of m c main_arg6 (by decide)).trans rfl

theorem W4_main_arg7 (c : Dev nD) : W4 m c (Proc.devRef .tc main_arg7) = m ((c : Thread nD τ).loc main_arg7) :=
  (W4_of_ne m c main_arg7 (by decide)).trans <| (W3_of m c main_arg7 (by decide)).trans <|
    (W2_of_ne m c main_arg7 (by decide)).trans <| (V1_of m c main_arg7 (by decide)).trans rfl

theorem W4_main_arg8 (c : Dev nD) : W4 m c (Proc.devRef .tc main_arg8) = m ((c : Thread nD τ).loc main_arg8) :=
  (W4_of_ne m c main_arg8 (by decide)).trans <| (W3_of m c main_arg8 (by decide)).trans <|
    (W2_of_ne m c main_arg8 (by decide)).trans <| (V1_of m c main_arg8 (by decide)).trans rfl

theorem W4_main_arg9 (c : Dev nD) : W4 m c (Proc.devRef .tc main_arg9) = m ((c : Thread nD τ).loc main_arg9) :=
  (W4_of_ne m c main_arg9 (by decide)).trans <| (W3_of m c main_arg9 (by decide)).trans <|
    (W2_of_ne m c main_arg9 (by decide)).trans <| (V1_of m c main_arg9 (by decide)).trans rfl

theorem W4_main_arg10 (c : Dev nD) : W4 m c (Proc.devRef .tc main_arg10) = m ((c : Thread nD τ).loc main_arg10) :=
  (W4_of_ne m c main_arg10 (by decide)).trans <| (W3_of m c main_arg10 (by decide)).trans <|
    (W2_of_ne m c main_arg10 (by decide)).trans <| (V1_of m c main_arg10 (by decide)).trans rfl

theorem W4_main_arg11 (c : Dev nD) : W4 m c (Proc.devRef .tc main_arg11) = m ((c : Thread nD τ).loc main_arg11) :=
  (W4_of_ne m c main_arg11 (by decide)).trans <| (W3_of m c main_arg11 (by decide)).trans <|
    (W2_of_ne m c main_arg11 (by decide)).trans <| (V1_of m c main_arg11 (by decide)).trans rfl

theorem W4_main_arg12 (c : Dev nD) : W4 m c (Proc.devRef .tc main_arg12) = m ((c : Thread nD τ).loc main_arg12) :=
  (W4_of_ne m c main_arg12 (by decide)).trans <| (W3_of m c main_arg12 (by decide)).trans <|
    (W2_of_ne m c main_arg12 (by decide)).trans <| (V1_of m c main_arg12 (by decide)).trans rfl

theorem W4_main_arg13 (c : Dev nD) : W4 m c (Proc.devRef .tc main_arg13) = m ((c : Thread nD τ).loc main_arg13) :=
  (W4_of_ne m c main_arg13 (by decide)).trans <| (W3_of m c main_arg13 (by decide)).trans <|
    (W2_of_ne m c main_arg13 (by decide)).trans <| (V1_of m c main_arg13 (by decide)).trans rfl

/-! ## The proof data family and the thread state -/

/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => Msg.dat (E1 m) c
  | ⟨1, _⟩ => fun c => Upd.dat (E3 m) c
abbrev 𝒱₀ : Variants := Variants.none
abbrev L : GSem nD τ sig → Finset Unit := fun _ => ∅
abbrev lv : GSem nD τ sig → Unit → ℕ := fun _ _ => 0
/-- What rides beside the buffers through every item: the generator register at some state and the core's dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at
    some state. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- The message launch over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Msg.body_obligation (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The update launch over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Upd.body_obligation (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The four items in order. -/
abbrev segs : List (Pipeline.Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer of every core at the last contents `W4`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c),
     (h c _ (mem_uc main_arg10 (by decide))).trans (W4_main_arg10 m c),
     (h c _ (mem_uc main_arg11 (by decide))).trans (W4_main_arg11 m c),
     (h c _ (mem_uc main_arg12 (by decide))).trans (W4_main_arg12 m c),
     (h c _ (mem_uc main_arg13 (by decide))).trans (W4_main_arg13 m c)⟩) (run_all m ρ)

end Cert.KernelIdeal.Whole

end
-- ==== Proof.Spec.lean ====
/-
  The mathematics of one message-passing layer, row by row, on the extended reals.

  A dense layer sends a row `x` of `K` entries to the row whose entry `n` is `∑ k, x k · W (k, n) + b n`.  The message
  network of an edge is three dense layers (192 → 128 → 128 → 64) with `max(·, 0)` after the first two, applied to the
  edge's gathered row.  The update of a node is the node's own features plus two dense layers (96 → 128 → 64), with
  `max(·, 0)` between them, applied to the node's features and its spacetime embedding side by side.
-/
import Idealize.ShloMosaic.Lib.ValueIdx
import Idealize.ShloMosaic.PureOps.Ideal.Laws

noncomputable section

namespace Cert.Smpn

open Idealize.ShloMosaic Idealize.ShloMosaic.ValueIdx

/-- Entry `n` of a dense layer's output row: the weighted sum of the input row down column `n`, plus the bias. -/
def dense {K N : ℕ} (x : Fin K → EReal) (W : (⟨2, ![K, N]⟩ : Shape).Idx → EReal) (b : Fin N → EReal) (n : Fin N) : EReal :=
  (∑ k : Fin K, x k * W (ix2 k n)) + b n

/-- Entry `j` of an edge's message: three dense layers, the first two followed by `max(·, 0)`. -/
def msgRow (x : Fin 192 → EReal) (W1 : (⟨2, ![192, 128]⟩ : Shape).Idx → EReal) (b1 : Fin 128 → EReal)
    (W2 : (⟨2, ![128, 128]⟩ : Shape).Idx → EReal) (b2 : Fin 128 → EReal)
    (W3 : (⟨2, ![128, 64]⟩ : Shape).Idx → EReal) (b3 : Fin 64 → EReal) (j : Fin 64) : EReal :=
  dense (fun k2 => max (dense (fun k1 => max (dense x W1 b1 k1) 0) W2 b2 k2) 0) W3 b3 j

/-- Two rows side by side: 64 entries then 32. -/
def catRow (a : Fin 64 → EReal) (b : Fin 32 → EReal) : Fin 96 → EReal :=
  fun k => if h : k.val < 64 then a ⟨k.val, h⟩ else b ⟨k.val - 64, by omega⟩

/-- Entry `j` of a node's new features: its own entry plus two dense layers of the side-by-side row `u`. -/
def updRow (nf : Fin 64 → EReal) (u : Fin 96 → EReal) (W1 : (⟨2, ![96, 128]⟩ : Shape).Idx → EReal) (b1 : Fin 128 → EReal)
    (W2 : (⟨2, ![128, 64]⟩ : Shape).Idx → EReal) (b2 : Fin 64 → EReal) (j : Fin 64) : EReal :=
  nf j + dense (fun k => max (dense u W1 b1 k) 0) W2 b2 j

/-- All edges' messages as one array: row `e` is `msgRow` of row `e` of the gathered inputs `X`; the biases are given
    as one-row matrices. -/
def msgArr (X : (⟨2, ![800000, 192]⟩ : Shape).Idx → EReal) (W1 : (⟨2, ![192, 128]⟩ : Shape).Idx → EReal)
    (b1 : (⟨2, ![1, 128]⟩ : Shape).Idx → EReal) (W2 : (⟨2, ![128, 128]⟩ : Shape).Idx → EReal)
    (b2 : (⟨2, ![1, 128]⟩ : Shape).Idx → EReal) (W3 : (⟨2, ![128, 64]⟩ : Shape).Idx → EReal)
    (b3 : (⟨2, ![1, 64]⟩ : Shape).Idx → EReal) : (⟨2, ![800000, 64]⟩ : Shape).Idx → EReal :=
  fun i => msgRow (fun k => X (ix2 (i 0) k)) W1 (fun n => b1 (ix2 0 n)) W2 (fun n => b2 (ix2 0 n)) W3 (fun n => b3 (ix2 0 n)) (i 1)

/-- All nodes' new features as one array; the biases are given as one-row matrices. -/
def updArr (NF : (⟨2, ![50000, 64]⟩ : Shape).Idx → EReal) (ST : (⟨2, ![50000, 32]⟩ : Shape).Idx → EReal)
    (W1 : (⟨2, ![96, 128]⟩ : Shape).Idx → EReal) (b1 : (⟨2, ![1, 128]⟩ : Shape).Idx → EReal)
    (W2 : (⟨2, ![128, 64]⟩ : Shape).Idx → EReal) (b2 : (⟨2, ![1, 64]⟩ : Shape).Idx → EReal) :
    (⟨2, ![50000, 64]⟩ : Shape).Idx → EReal :=
  fun i => updRow (fun k => NF (ix2 (i 0) k)) (catRow (fun k => NF (ix2 (i 0) k)) (fun k => ST (ix2 (i 0) k))) W1
    (fun n => b1 (ix2 0 n)) W2 (fun n => b2 (ix2 0 n)) (i 1)

end Cert.Smpn

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KernelIdeal.Payload.lean ====
/-
  The two kernel bodies' stored values, read at one entry, on the extended reals.

  Each kernel stores a composition of dense layers.  A layer as the kernel spells it is a matrix product into a zero
  accumulator plus a one-row bias spread over all rows; at entry (p, q) that is the sum down column q of the products
  with row p of the input, plus the bias's entry q: the dense layer of row p.  Between layers the kernel takes the
  maximum with a splat zero and narrows the format; on the extended reals the narrowing is the identity, so that step
  is `max(·, 0)` entry by entry.  Since a layer's entry depends on its input only through the input's row, the layers
  compose row by row: the message kernel's entry (r, j) is three dense layers of row r of the gathered inputs, and the
  update kernel's entry (r, j) is the node's own entry plus two dense layers of the row made of the node's 64 features
  followed by its 32 embedding entries.
-/
import proofs.«161019_j82592221102879_1_alg».proof.Proof.Gen.KernelIdeal.Skeleton
import proofs.«161019_j82592221102879_1_alg».proof.Proof.Spec
import proofs.«161019_j82592221102879_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- A dense layer's entry depends on the input row only through its entries. -/
theorem dense_congr {K N : ℕ} {x y : Fin K → EReal} (h : ∀ k, x k = y k) (W : (⟨2, ![K, N]⟩ : Shape).Idx → EReal)
    (b : Fin N → EReal) (n : Fin N) : Cert.Smpn.dense x W b n = Cert.Smpn.dense y W b n := by
  rw [show x = y from funext h]

/-- One dense layer as the kernel spells it — the product into a zero accumulator plus the bias row spread over all
    rows — at entry (p, q). -/
theorem layer_apply {M K N : ℕ} {φ₁ φ₂ : FTy} (D : DotDims ⟨2, ![M, K]⟩ ⟨2, ![K, N]⟩ ⟨2, ![M, N]⟩) (hD : Cert.Gcn.IsPlain D)
    (A : FVec Ideal ⟨2, ![M, K]⟩ φ₁) (W : FVec Ideal ⟨2, ![K, N]⟩ φ₂) (b : FVec Ideal ⟨2, ![1, N]⟩ .f32)
    (hbc : (⟨2, ![1, N]⟩ : Shape).Broadcasts ⟨2, ![M, N]⟩) (p : Fin M) (q : Fin N) :
    addf (matmul D none A W (constant (F := Ideal) ⟨2, ![M, N]⟩ .f32 0x00000000#32))
        (broadcastTo ⟨2, ![M, N]⟩ b hbc) (ix2 p q)
      = Cert.Smpn.dense (fun k => A (ix2 p k)) W (fun n => b (ix2 0 n)) q := by
  refine (addf_apply _ _ _).trans ?_
  rw [Cert.Gcn.matmul_plain_apply D hD none A W p q, broadcastTo_1b_ab_apply]
  rfl

/-- `max(·, 0)` followed by the narrowing format change, at an index. -/
theorem relu_apply {s : Shape} (v : FVec Ideal s .f32) (h : FTy.bf16.bits < FTy.f32.bits) (i : s.Idx) :
    truncf .bf16 (maximumf v (broadcast s (Scalar.ofBits .f32 0x00000000#32))) h i = max (v i) 0 := by
  refine (truncf_apply (ψ := .bf16) (maximumf v (broadcast s (Scalar.ofBits .f32 0x00000000#32))) h i).trans ?_
  refine (maximumf_apply v (broadcast s (Scalar.ofBits .f32 0x00000000#32)) i).trans ?_
  rw [broadcast_apply]
  exact congrArg (max (v i)) Ideal.ofBits_zero_f32

/-- The two feature blocks side by side, at entry (r, k): the first block's entry k when k < 64, otherwise the
    second block's entry k − 64. -/
theorem cat_apply (v0 : FVec Ideal S5000x64 .f32) (v1 : FVec Ideal S5000x32 .f32)
    (h : Shape.Concatenates [S5000x64, S5000x32] S5000x96 1) (r : Fin 5000) (k : Fin 96) :
    concatenate S5000x96 1 [⟨S5000x64, v0⟩, ⟨S5000x32, v1⟩] h (ix2 r k)
      = Cert.Smpn.catRow (fun c => v0 (ix2 r c)) (fun c => v1 (ix2 r c)) k := by
  unfold Cert.Smpn.catRow
  split
  · next hk =>
    exact concatenate_pair_apply_left (1 : Fin 2) v0 v1 h (ix2 r k) rfl (ix2 r ⟨k.val, hk⟩)
      (fun b => match b with | ⟨0, _⟩ => rfl | ⟨1, _⟩ => rfl)
  · next hk =>
    refine concatenate_pair_apply_right (1 : Fin 2) v0 v1 h (ix2 r k) rfl rfl (ix2 r ⟨k.val - 64, by omega⟩)
      (fun b hb => ?_) ?_
    · match b, hb with
      | ⟨0, _⟩, _ => rfl
      | ⟨1, _⟩, hb => exact absurd rfl hb
    · show k.val - 64 + 64 = k.val
      omega

/-- The message kernel's stored value at entry (r, j): three dense layers of row r of the gathered inputs, `max(·, 0)`
    after the first two. -/
theorem msg_payload_apply (x0 : Vec Ideal S10000x192 .bf16) (x1 : Vec Ideal S192x128 .bf16) (x2 : Vec Ideal S1x128 .f32)
    (x3 : Vec Ideal S128x128 .bf16) (x4 : Vec Ideal S1x128 .f32) (x5 : Vec Ideal S128x64 .bf16) (x6 : Vec Ideal S1x64 .f32)
    (r : Fin 10000) (j : Fin 64) :
    k0_pay1 (F := Ideal) x0 x1 x2 x3 x4 x5 x6 (ix2 r j)
      = Cert.Smpn.msgRow (fun k => x0 (ix2 r k)) x1 (fun n => x2 (ix2 0 n)) x3 (fun n => x4 (ix2 0 n)) x5 (fun n => x6 (ix2 0 n)) j := by
  simp only [k0_pay1, shapeCast_self]
  refine (layer_apply dot_S10000x128_S128x64_S10000x64_1_0_0_1_n_n ⟨rfl, rfl, rfl, rfl, rfl, rfl⟩ _ x5 x6 _ r j).trans ?_
  refine dense_congr (fun k2 => ?_) _ _ _
  refine (relu_apply _ _ _).trans ?_
  refine congrArg (fun t => max t 0) ?_
  refine (layer_apply dot_S10000x128_S128x128_S10000x128_1_0_0_1_n_n ⟨rfl, rfl, rfl, rfl, rfl, rfl⟩ _ x3 x4 _ r k2).trans ?_
  refine dense_congr (fun k1 => ?_) _ _ _
  refine (relu_apply _ _ _).trans ?_
  refine congrArg (fun t => max t 0) ?_
  exact layer_apply dot_S10000x192_S192x128_S10000x128_1_0_0_1_n_n ⟨rfl, rfl, rfl, rfl, rfl, rfl⟩ x0 x1 x2 _ r k1

/-- The update kernel's stored value at entry (r, j): the node's own entry plus two dense layers, `max(·, 0)` between
    them, of the node's features and its embedding side by side. -/
theorem upd_payload_apply (v0 : Vec Ideal S5000x64 .f32) (v1 : Vec Ideal S5000x32 .f32) (v4 : Vec Ideal S96x128 .bf16)
    (v7 : Vec Ideal S1x128 .f32) (v14 : Vec Ideal S128x64 .bf16) (v17 : Vec Ideal S1x64 .f32) (r : Fin 5000) (j : Fin 64) :
    k1_pay1 (F := Ideal) v0 v1 v4 v7 v14 v17 (ix2 r j)
      = Cert.Smpn.updRow (fun k => v0 (ix2 r k)) (Cert.Smpn.catRow (fun k => v0 (ix2 r k)) (fun k => v1 (ix2 r k))) v4
          (fun n => v7 (ix2 0 n)) v14 (fun n => v17 (ix2 0 n)) j := by
  simp only [k1_pay1, shapeCast_self]
  refine (addf_apply _ _ _).trans ?_
  unfold Cert.Smpn.updRow
  refine congrArg (fun t => v0 (ix2 r j) + t) ?_
  refine (layer_apply dot_S5000x128_S128x64_S5000x64_1_0_0_1_n_n ⟨rfl, rfl, rfl, rfl, rfl, rfl⟩ _ v14 v17 _ r j).trans ?_
  refine dense_congr (fun k => ?_) _ _ _
  refine (relu_apply _ _ _).trans ?_
  refine congrArg (fun t => max t 0) ?_
  refine (layer_apply dot_S5000x96_S96x128_S5000x128_1_0_0_1_n_n ⟨rfl, rfl, rfl, rfl, rfl, rfl⟩ _ v4 v7 _ r k).trans ?_
  refine dense_congr (fun c => ?_) _ _ _
  refine (truncf_apply (φ := .f32) (ψ := .bf16) _ bitsLt_bf16_f32 (ix2 r c)).trans ?_
  exact cat_apply v0 v1 _ r c

end Cert.KernelIdeal.Payload
end
-- ==== Proof.KernelIdeal.MsgArray.lean ====
import proofs.«161019_j82592221102879_1_alg».proof.Proof.KernelIdeal.MsgRegion
import proofs.«161019_j82592221102879_1_alg».proof.Proof.KernelIdeal.Payload
import proofs.«161019_j82592221102879_1_alg».proof.Proof.Spec
import Idealize.ShloMosaic.Lib.Pipeline.Value
import Idealize.ShloMosaic.Lib.ValueIdx

set_option maxRecDepth 16384

noncomputable section

namespace Cert.KernelIdeal.MsgValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Payload

/-! # What the message launch leaves in its output array

Grid point `t` reads rows `10000·t … 10000·t + 9999` of the gathered inputs and the weights and biases whole, and
writes the same rows of the output; row by row the stored value is the three-layer network of the input row.  The
eighty blocks tile the 800000 rows, so the array ends as `Cert.Smpn.msgArr` of the arrays the launch found. -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t` of axis 0, every other block index
    is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The array the launch ends with, as one function of the arrays it found. -/
abbrev G (c : Dev nD) : S800000x64.Idx → EReal :=
  Cert.Smpn.msgArr (V c main_v28) (V c main_v29) (V c main_v32) (V c main_v30) (V c main_v33) (V c main_v31) (V c main_v34)

/-- Row `r` of the inputs' block at point `t` is row `10000·t + r` of the gathered inputs. -/
theorem blk0_apply (c : Dev nD) (t : Fin cfg0.N) (r : Fin 10000) (k : Fin 192) (ht : t.val * 10000 + r.val < 800000) :
    Msg.blk V c 0 t (ix2 r k) = V c main_v28 (ix2 ⟨t.val * 10000 + r.val, ht⟩ k) := by
  obtain ⟨e0, e1, -⟩ := idx_facts t
  show V c main_v28 (((cfg0.win 0).blk t).view.emb (ix2 r k)) = _
  refine congrArg _ (funext fun a => Fin.ext ?_)
  match a with
  | ⟨0, _⟩ => show win0_0.index t (0 : Fin 2) * 10000 + 1 * r.val = t.val * 10000 + r.val; omega
  | ⟨1, _⟩ => show win0_0.index t (1 : Fin 2) * 192 + 1 * k.val = k.val; omega

/-! A weight or bias window's block at any point is its whole array. -/

theorem blk1_eq (c : Dev nD) (t : Fin cfg0.N) : (Msg.blk V c 1 t : S192x128.Idx → EReal) = V c main_v29 := by
  obtain ⟨e00, e01, e10, e11, e20, e21, e30, e31, e40, e41, e50, e51, e60, e61, e70, e71⟩ := idx_facts t
  funext y
  show V c main_v29 (((cfg0.win 1).blk t).view.emb y) = V c main_v29 y
  refine congrArg _ (funext fun a => Fin.ext ?_)
  match a with
  | ⟨0, _⟩ => show win0_1.index t (0 : Fin 2) * 192 + 1 * (y 0).val = (y 0).val; omega
  | ⟨1, _⟩ => show win0_1.index t (1 : Fin 2) * 128 + 1 * (y 1).val = (y 1).val; omega

theorem blk2_eq (c : Dev nD) (t : Fin cfg0.N) : (Msg.blk V c 2 t : S1x128.Idx → EReal) = V c main_v32 := by
  obtain ⟨e00, e01, e10, e11, e20, e21, e30, e31, e40, e41, e50, e51, e60, e61, e70, e71⟩ := idx_facts t
  funext y
  show V c main_v32 (((cfg0.win 2).blk t).view.emb y) = V c main_v32 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem blk3_eq (c : Dev nD) (t : Fin cfg0.N) : (Msg.blk V c 3 t : S128x128.Idx → EReal) = V c main_v30 := by
  obtain ⟨e00, e01, e10, e11, e20, e21, e30, e31, e40, e41, e50, e51, e60, e61, e70, e71⟩ := idx_facts t
  funext y
  show V c main_v30 (((cfg0.win 3).blk t).view.emb y) = V c main_v30 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk4_eq (c : Dev nD) (t : Fin cfg0.N) : (Msg.blk V c 4 t : S1x128.Idx → EReal) = V c main_v33 := by
  obtain ⟨e00, e01, e10, e11, e20, e21, e30, e31, e40, e41, e50, e51, e60, e61, e70, e71⟩ := idx_facts t
  funext y
  show V c main_v33 (((cfg0.win 4).blk t).view.emb y) = V c main_v33 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk5_eq (c : Dev nD) (t : Fin cfg0.N) : (Msg.blk V c 5 t : S128x64.Idx → EReal) = V c main_v31 := by
  obtain ⟨e00, e01, e10, e11, e20, e21, e30, e31, e40, e41, e50, e51, e60, e61, e70, e71⟩ := idx_facts t
  funext y
  show V c main_v31 (((cfg0.win 5).blk t).view.emb y) = V c main_v31 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 64 + 1 * (y 1).val = (y 1).val; omega

theorem blk6_eq (c : Dev nD) (t : Fin cfg0.N) : (Msg.blk V c 6 t : S1x64.Idx → EReal) = V c main_v34 := by
  obtain ⟨e00, e01, e10, e11, e20, e21, e30, e31, e40, e41, e50, e51, e60, e61, e70, e71⟩ := idx_facts t
  funext y
  show V c main_v34 (((cfg0.win 6).blk t).view.emb y) = V c main_v34 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- What point `t` writes back is block `t` of `G`. -/
theorem flushed_eq (c : Dev nD) (t : Fin cfg0.N) :
    (Msg.dat V c).flushed 7 t = ((cfg0.win 7).blk t).view.read (Elt Ideal) (G V c) := by
  show (cfg0.win 7).cut (grid0.coords t) ((Msg.dat V c).after 7 t) = _
  rw [Msg.after7]
  unfold Msg.outBlk
  rw [View.canon_unit_zero hz]
  simp only [View.ld_unit_zero (S := S10000x192) hz, View.ld_unit_zero (S := S192x128) hz, View.ld_unit_zero (S := S1x128) hz,
    View.ld_unit_zero (S := S128x128) hz, View.ld_unit_zero (S := S128x64) hz, View.ld_unit_zero (S := S1x64) hz]
  funext j
  obtain ⟨r, q, rfl⟩ : ∃ (r : Fin 10000) (q : Fin 64), j = ix2 r q := ⟨j 0, j 1, eq_ix2 j⟩
  have ht : t.val < 80 := lt_of_lt_of_eq t.isLt (N_0 : cfg0.N = 80)
  have hr : t.val * 10000 + r.val < 800000 := by have := r.isLt; omega
  refine (msg_payload_apply (Msg.blk V c 0 t) (Msg.blk V c 1 t) (Msg.blk V c 2 t) (Msg.blk V c 3 t) (Msg.blk V c 4 t)
    (Msg.blk V c 5 t) (Msg.blk V c 6 t) r q).trans ?_
  have hemb : ((cfg0.win 7).blk t).view.emb (ix2 r q) = ix2 ⟨t.val * 10000 + r.val, hr⟩ q := by
    obtain ⟨e00, e01, e10, e11, e20, e21, e30, e31, e40, e41, e50, e51, e60, e61, e70, e71⟩ := idx_facts t
    funext a; apply Fin.ext
    match a with
    | ⟨0, _⟩ => show win0_7.index t (0 : Fin 2) * 10000 + 1 * r.val = t.val * 10000 + r.val; omega
    | ⟨1, _⟩ => show win0_7.index t (1 : Fin 2) * 64 + 1 * q.val = q.val; omega
  show _ = G V c (((cfg0.win 7).blk t).view.emb (ix2 r q))
  rw [hemb, blk1_eq V c t, blk2_eq V c t, blk3_eq V c t, blk4_eq V c t, blk5_eq V c t, blk6_eq V c t]
  simp only [blk0_apply V c t r _ hr]
  rfl

/-- An index of the array is in point `t`'s block iff each coordinate is in the block's range on its axis. -/
theorem mem_blk (t : Fin cfg0.N) (i : S800000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v35).slice (win0_7.rect t)).set ↔ _
  rw [View.set_slice_whole, Rect.mem_set_unit]
  exact Iff.rfl

/-- Every row lies in the block of the point numbered by the row's quotient by ten thousand. -/
theorem cover (i : S800000x64.Idx) : ∃ t : Fin cfg0.N, (cfg0.win 7).flush t = true ∧ i ∈ ((cfg0.win 7).blk t).view.set := by
  have hi0 : (i 0).val < 800000 := (i 0).isLt
  have hi1 : (i 1).val < 64 := (i 1).isLt
  let t : Fin cfg0.N := ⟨(i 0).val / 10000, by rw [show cfg0.N = 80 from N_0]; omega⟩
  obtain ⟨e00, e01, e10, e11, e20, e21, e30, e31, e40, e41, e50, e51, e60, e61, e70, e71⟩ := idx_facts t
  have e70' : win0_7.index t (0 : Fin 2) = (i 0).val / 10000 := e70
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-- The output array after the launch. -/
theorem final (c : Dev nD) : (Msg.dat V c).arrAt 7 cfg0.N = G V c :=
  (Msg.dat V c).arrAt_eq_of_cover 7 (G V c) (fun t _ => flushed_eq V c t) cover

end Cert.KernelIdeal.MsgValue

end
-- ==== Proof.KernelIdeal.UpdArray.lean ====
import proofs.«161019_j82592221102879_1_alg».proof.Proof.KernelIdeal.UpdRegion
import proofs.«161019_j82592221102879_1_alg».proof.Proof.KernelIdeal.Payload
import proofs.«161019_j82592221102879_1_alg».proof.Proof.Spec
import Idealize.ShloMosaic.Lib.Pipeline.Value
import Idealize.ShloMosaic.Lib.ValueIdx

set_option maxRecDepth 16384

noncomputable section

namespace Cert.KernelIdeal.UpdValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Payload

/-! # What the update launch leaves in its output array

Grid point `t` reads rows `5000·t … 5000·t + 4999` of the node features and of the spacetime embeddings and the
weights and biases whole, and writes the same rows of the output; row by row the stored value is the node's features
plus the two-layer network of the two rows side by side.  The ten blocks tile the 50000 rows, so the array ends as
`Cert.Smpn.updArr` of the arrays the launch found. -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t` of axis 0, every other block index
    is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array the launch ends with, as one function of the arrays it found. -/
abbrev G (c : Dev nD) : S50000x64.Idx → EReal :=
  Cert.Smpn.updArr (V c main_arg0) (V c main_arg2) (V c main_v39) (V c main_v41) (V c main_v40) (V c main_v42)

/-- Row `r` of the node features' block at point `t` is row `5000·t + r` of the node features. -/
theorem blk0_apply (c : Dev nD) (t : Fin cfg1.N) (r : Fin 5000) (k : Fin 64) (ht : t.val * 5000 + r.val < 50000) :
    Upd.blk V c 0 t (ix2 r k) = V c main_arg0 (ix2 ⟨t.val * 5000 + r.val, ht⟩ k) := by
  obtain ⟨e00, e01, -⟩ := idx_facts t
  show V c main_arg0 (((cfg1.win 0).blk t).view.emb (ix2 r k)) = _
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 64 + 1 * k.val = k.val; omega

/-- Row `r` of the spacetime embeddings' block at point `t` is row `5000·t + r` of the embeddings. -/
theorem blk1_apply (c : Dev nD) (t : Fin cfg1.N) (r : Fin 5000) (k : Fin 32) (ht : t.val * 5000 + r.val < 50000) :
    Upd.blk V c 1 t (ix2 r k) = V c main_arg2 (ix2 ⟨t.val * 5000 + r.val, ht⟩ k) := by
  obtain ⟨e00, e01, e10, e11, -⟩ := idx_facts t
  show V c main_arg2 (((cfg1.win 1).blk t).view.emb (ix2 r k)) = _
  refine congrArg _ (funext fun a => Fin.ext ?_)
  match a with
  | ⟨0, _⟩ => show win1_1.index t (0 : Fin 2) * 5000 + 1 * r.val = t.val * 5000 + r.val; omega
  | ⟨1, _⟩ => show win1_1.index t (1 : Fin 2) * 32 + 1 * k.val = k.val; omega

/-! A weight or bias window's block at any point is its whole array. -/

theorem blk2_eq (c : Dev nD) (t : Fin cfg1.N) : (Upd.blk V c 2 t : S96x128.Idx → EReal) = V c main_v39 := by
  obtain ⟨e00, e01, e10, e11, e20, e21, e30, e31, e40, e41, e50, e51, e60, e61⟩ := idx_facts t
  funext y
  show V c main_v39 (((cfg1.win 2).blk t).view.emb y) = V c main_v39 y
  refine congrArg _ (funext fun a => Fin.ext ?_)
  match a with
  | ⟨0, _⟩ => show win1_2.index t (0 : Fin 2) * 96 + 1 * (y 0).val = (y 0).val; omega
  | ⟨1, _⟩ => show win1_2.index t (1 : Fin 2) * 128 + 1 * (y 1).val = (y 1).val; omega

theorem blk3_eq (c : Dev nD) (t : Fin cfg1.N) : (Upd.blk V c 3 t : S1x128.Idx → EReal) = V c main_v41 := by
  obtain ⟨e00, e01, e10, e11, e20, e21, e30, e31, e40, e41, e50, e51, e60, e61⟩ := idx_facts t
  funext y
  show V c main_v41 (((cfg1.win 3).blk t).view.emb y) = V c main_v41 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem blk4_eq (c : Dev nD) (t : Fin cfg1.N) : (Upd.blk V c 4 t : S128x64.Idx → EReal) = V c main_v40 := by
  obtain ⟨e00, e01, e10, e11, e20, e21, e30, e31, e40, e41, e50, e51, e60, e61⟩ := idx_facts t
  funext y
  show V c main_v40 (((cfg1.win 4).blk t).view.emb y) = V c main_v40 y
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 64 + 1 * (y 1).val = (y 1).val; omega

theorem blk5_eq (c : Dev nD) (t : Fin cfg1.N) : (Upd.blk V c 5 t : S1x64.Idx → EReal) = V c main_v42 := by
  obtain ⟨e00, e01, e10, e11, e20, e21, e30, e31, e40, e41, e50, e51, e60, e61⟩ := idx_facts t
  funext y
  show V c main_v42 (((cfg1.win 5).blk t).view.emb y) = V c main_v42 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- What point `t` writes back is block `t` of `G`. -/
theorem flushed_eq (c : Dev nD) (t : Fin cfg1.N) :
    (Upd.dat V c).flushed 6 t = ((cfg1.win 6).blk t).view.read (Elt Ideal) (G V c) := by
  show (cfg1.win 6).cut (grid1.coords t) ((Upd.dat V c).after 6 t) = _
  rw [Upd.after6]
  unfold Upd.outBlk
  rw [View.canon_unit_zero hz]
  simp only [View.ld_unit_zero (S := S5000x64) hz, View.ld_unit_zero (S := S5000x32) hz, View.ld_unit_zero (S := S96x128) hz,
    View.ld_unit_zero (S := S1x128) hz, View.ld_unit_zero (S := S128x64) hz, View.ld_unit_zero (S := S1x64) hz]
  funext j
  obtain ⟨r, q, rfl⟩ : ∃ (r : Fin 5000) (q : Fin 64), j = ix2 r q := ⟨j 0, j 1, eq_ix2 j⟩
  have ht : t.val < 10 := lt_of_lt_of_eq t.isLt (N_1 : cfg1.N = 10)
  have hr : t.val * 5000 + r.val < 50000 := by have := r.isLt; omega
  refine (upd_payload_apply (Upd.blk V c 0 t) (Upd.blk V c 1 t) (Upd.blk V c 2 t) (Upd.blk V c 3 t) (Upd.blk V c 4 t)
    (Upd.blk V c 5 t) r q).trans ?_
  have hemb : ((cfg1.win 6).blk t).view.emb (ix2 r q) = ix2 ⟨t.val * 5000 + r.val, hr⟩ q := by
    obtain ⟨e00, e01, e10, e11, e20, e21, e30, e31, e40, e41, e50, e51, e60, e61⟩ := idx_facts t
    funext a; apply Fin.ext
    match a with
    | ⟨0, _⟩ => show win1_6.index t (0 : Fin 2) * 5000 + 1 * r.val = t.val * 5000 + r.val; omega
    | ⟨1, _⟩ => show win1_6.index t (1 : Fin 2) * 64 + 1 * q.val = q.val; omega
  show _ = G V c (((cfg1.win 6).blk t).view.emb (ix2 r q))
  rw [hemb, blk2_eq V c t, blk3_eq V c t, blk4_eq V c t, blk5_eq V c t]
  simp only [blk0_apply V c t r _ hr, blk1_apply V c t r _ hr]
  rfl

/-- An index of the array is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v43).slice (win1_6.rect t)).set ↔ _
  rw [View.set_slice_whole, Rect.mem_set_unit]
  exact Iff.rfl

/-- Every row lies in the block of the point numbered by the row's quotient by five thousand. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨e00, e01, e10, e11, e20, e21, e30, e31, e40, e41, e50, e51, e60, e61⟩ := idx_facts t
  have e60' : win1_6.index t (0 : Fin 2) = (i 0).val / 5000 := e60
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array after the launch. -/
theorem final (c : Dev nD) : (Upd.dat V c).arrAt 6 cfg1.N = G V c :=
  (Upd.dat V c).arrAt_eq_of_cover 6 (G V c) (fun t _ => flushed_eq V c t) cover

end Cert.KernelIdeal.UpdValue

end
-- ==== Proof.KernelIdeal.HostReads.lean ====
/-
  What the program's two stretches of host operations leave in the buffers the kernels read, from any contents.

  Before the message kernel the host makes the edges' gathered rows: for each edge, the features of the node in column
  0 of the edge list, the features of the node in column 1, the edge's own features and the embedding of the node in
  column 0, side by side, every operand narrowed first, a node number below zero having the node count added.  It
  narrows the three message weights and turns each bias vector into a one-row matrix.  Before the update kernel it sums
  the messages at the nodes of column 1, starting from zero, and prepares the update's weights and biases the same way.
  Each buffer's contents after a stretch is the composition of the operations that wrote it, over the contents the
  stretch started from at the buffers it only reads.  The concatenation is read in two steps: its buffer holds the
  concatenation of what its four operand buffers hold, and each operand buffer is read by itself.  Last, three facts on
  the extended reals for reading these terms at an entry: narrowing is the identity, and a vector as a one-row matrix
  reads the vector's entry.
-/
import proofs.«161019_j82592221102879_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostReads

open Idealize.ShloMosaic Idealize.ShloMosaic.TcCoe Cert.KernelIdeal Cert.KernelIdeal.Gen

variable {F : FTy → Type} [FloatOps F]

/-! ## The first stretch: column 1 of the edge list, the weights narrowed, the biases as one-row matrices -/

/-- Column 1 of the edge list, as a vector. -/
theorem h0_main_v3 (W : Valuation τ sig (Elt F)) :
    StableHlo.after hostOps0 W (Proc.devRef .tc main_v3)
      = shapeCast _ (extractStridedSlice S800000x1 ![0, 1] (W (Proc.devRef .tc main_arg13)) slices_S800000x2_S800000x1_0_1)
          shapeCasts_S800000x1_S800000 := by
  dsimp only [hostOps0]
  after_results_simp <;> rfl

/-- The first message weight, narrowed. -/
theorem h0_main_v29 (W : Valuation τ sig (Elt F)) :
    StableHlo.after hostOps0 W (Proc.devRef .tc main_v29) = truncf .bf16 (W (Proc.devRef .tc main_arg3)) bitsLt_bf16_f32 := by
  dsimp only [hostOps0]
  after_results_simp <;> rfl

/-- The second message weight, narrowed. -/
theorem h0_main_v30 (W : Valuation τ sig (Elt F)) :
    StableHlo.after hostOps0 W (Proc.devRef .tc main_v30) = truncf .bf16 (W (Proc.devRef .tc main_arg5)) bitsLt_bf16_f32 := by
  dsimp only [hostOps0]
  after_results_simp <;> rfl

/-- The third message weight, narrowed. -/
theorem h0_main_v31 (W : Valuation τ sig (Elt F)) :
    StableHlo.after hostOps0 W (Proc.devRef .tc main_v31) = truncf .bf16 (W (Proc.devRef .tc main_arg7)) bitsLt_bf16_f32 := by
  dsimp only [hostOps0]
  after_results_simp <;> rfl

/-- The first message bias as a one-row matrix. -/
theorem h0_main_v32 (W : Valuation τ sig (Elt F)) :
    StableHlo.after hostOps0 W (Proc.devRef .tc main_v32) = shapeCast _ (W (Proc.devRef .tc main_arg4)) shapeCasts_S128_S1x128 := by
  dsimp only [hostOps0]
  after_results_simp <;> rfl

/-- The second message bias as a one-row matrix. -/
theorem h0_main_v33 (W : Valuation τ sig (Elt F)) :
    StableHlo.after hostOps0 W (Proc.devRef .tc main_v33) = shapeCast _ (W (Proc.devRef .tc main_arg6)) shapeCasts_S128_S1x128 := by
  dsimp only [hostOps0]
  after_results_simp <;> rfl

/-- The third message bias as a one-row matrix. -/
theorem h0_main_v34 (W : Valuation τ sig (Elt F)) :
    StableHlo.after hostOps0 W (Proc.devRef .tc main_v34) = shapeCast _ (W (Proc.devRef .tc main_arg8)) shapeCasts_S64_S1x64 := by
  dsimp only [hostOps0]
  after_results_simp <;> rfl

/-! ## The first stretch: the edges' gathered rows -/

/-- The node features, narrowed, gathered at column 0 of the edge list. -/
theorem h0_main_v13 (W : Valuation τ sig (Elt F)) :
    StableHlo.after hostOps0 W (Proc.devRef .tc main_v13)
      = Host.gather gather_S50000x64_S800000x1_S800000x64_1_0_n_n_0_1_164
          (truncf .bf16 (W (Proc.devRef .tc main_arg0)) bitsLt_bf16_f32)
          (broadcastInDim S800000x1 ![0] bcast_S800000_S800000x1_0
            (select
              (cmpi .slt
                (shapeCast _ (extractStridedSlice S800000x1 ![0, 0] (W (Proc.devRef .tc main_arg13)) slices_S800000x2_S800000x1_0_0) shapeCasts_S800000x1_S800000)
                (broadcastInDim S800000 ![] bcast_S_S800000 (constantI S_ 32 0#32)))
              (addi
                (shapeCast _ (extractStridedSlice S800000x1 ![0, 0] (W (Proc.devRef .tc main_arg13)) slices_S800000x2_S800000x1_0_0) shapeCasts_S800000x1_S800000)
                (broadcastInDim S800000 ![] bcast_S_S800000 (constantI S_ 32 50000#32)))
              (shapeCast _ (extractStridedSlice S800000x1 ![0, 0] (W (Proc.devRef .tc main_arg13)) slices_S800000x2_S800000x1_0_0) shapeCasts_S800000x1_S800000))) := by
  dsimp only [hostOps0]
  after_results_simp <;> rfl

/-- The node features, narrowed, gathered at column 1 of the edge list. -/
theorem h0_main_v20 (W : Valuation τ sig (Elt F)) :
    StableHlo.after hostOps0 W (Proc.devRef .tc main_v20)
      = Host.gather gather_S50000x64_S800000x1_S800000x64_1_0_n_n_0_1_164
          (truncf .bf16 (W (Proc.devRef .tc main_arg0)) bitsLt_bf16_f32)
          (broadcastInDim S800000x1 ![0] bcast_S800000_S800000x1_0
            (select
              (cmpi .slt
                (shapeCast _ (extractStridedSlice S800000x1 ![0, 1] (W (Proc.devRef .tc main_arg13)) slices_S800000x2_S800000x1_0_1) shapeCasts_S800000x1_S800000)
                (broadcastInDim S800000 ![] bcast_S_S800000 (constantI S_ 32 0#32)))
              (addi
                (shapeCast _ (extractStridedSlice S800000x1 ![0, 1] (W (Proc.devRef .tc main_arg13)) slices_S800000x2_S800000x1_0_1) shapeCasts_S800000x1_S800000)
                (broadcastInDim S800000 ![] bcast_S_S800000 (constantI S_ 32 50000#32)))
              (shapeCast _ (extractStridedSlice S800000x1 ![0, 1] (W (Proc.devRef .tc main_arg13)) slices_S800000x2_S800000x1_0_1) shapeCasts_S800000x1_S800000))) := by
  dsimp only [hostOps0]
  after_results_simp <;> rfl

/-- The edges' own features, narrowed. -/
theorem h0_main_v5 (W : Valuation τ sig (Elt F)) :
    StableHlo.after hostOps0 W (Proc.devRef .tc main_v5) = truncf .bf16 (W (Proc.devRef .tc main_arg1)) bitsLt_bf16_f32 := by
  dsimp only [hostOps0]
  after_results_simp <;> rfl

/-- The node embeddings, narrowed, gathered at column 0 of the edge list. -/
theorem h0_main_v27 (W : Valuation τ sig (Elt F)) :
    StableHlo.after hostOps0 W (Proc.devRef .tc main_v27)
      = Host.gather gather_S50000x32_S800000x1_S800000x32_1_0_n_n_0_1_132
          (truncf .bf16 (W (Proc.devRef .tc main_arg2)) bitsLt_bf16_f32)
          (broadcastInDim S800000x1 ![0] bcast_S800000_S800000x1_0
            (select
              (cmpi .slt
                (shapeCast _ (extractStridedSlice S800000x1 ![0, 0] (W (Proc.devRef .tc main_arg13)) slices_S800000x2_S800000x1_0_0) shapeCasts_S800000x1_S800000)
                (broadcastInDim S800000 ![] bcast_S_S800000 (constantI S_ 32 0#32)))
              (addi
                (shapeCast _ (extractStridedSlice S800000x1 ![0, 0] (W (Proc.devRef .tc main_arg13)) slices_S800000x2_S800000x1_0_0) shapeCasts_S800000x1_S800000)
                (broadcastInDim S800000 ![] bcast_S_S800000 (constantI S_ 32 50000#32)))
              (shapeCast _ (extractStridedSlice S800000x1 ![0, 0] (W (Proc.devRef .tc main_arg13)) slices_S800000x2_S800000x1_0_0) shapeCasts_S800000x1_S800000))) := by
  dsimp only [hostOps0]
  after_results_simp <;> rfl

/-- The gathered rows' buffer holds the four operand buffers' contents side by side: the six operations after the
    concatenation write none of the five buffers, and the concatenation reads its operands where they then stand.
    The contents before the concatenation are named as one valuation first, so that the rest is a small term. -/
theorem h0_main_v28_of_parts (W : Valuation τ sig (Elt F)) :
    StableHlo.after hostOps0 W (Proc.devRef .tc main_v28)
      = concatenate S800000x192 1
          [⟨S800000x64, StableHlo.after hostOps0 W (Proc.devRef .tc main_v13)⟩,
           ⟨S800000x64, StableHlo.after hostOps0 W (Proc.devRef .tc main_v20)⟩,
           ⟨S800000x32, StableHlo.after hostOps0 W (Proc.devRef .tc main_v5)⟩,
           ⟨S800000x32, StableHlo.after hostOps0 W (Proc.devRef .tc main_v27)⟩]
          concatenates_S800000x64_S800000x64_S800000x32_S800000x32_S800000x192_d1 := by
  dsimp only [hostOps0]
  simp only [StableHlo.after_cons, StableHlo.after_nil]
  generalize HloOp.result (StableHlo.binary main_v6 main_v26 main_v27 _ _ _ _) _ = V
  repeat (first
    | (rw [StableHlo.unary_result_ne]; rotate_left; decide)
    | (rw [StableHlo.reshape_result_ne]; rotate_left; decide))
  rw [StableHlo.nary_result]
  repeat (rw [StableHlo.nary_result_ne]; rotate_left; decide)
  rfl

/-- The edges' gathered rows: the features of the node in column 0, the features of the node in column 1, the edge's
    own features and the embedding of the node in column 0, side by side. -/
theorem h0_main_v28 (W : Valuation τ sig (Elt F)) :
    StableHlo.after hostOps0 W (Proc.devRef .tc main_v28)
      = concatenate S800000x192 1
          [⟨S800000x64,
              Host.gather gather_S50000x64_S800000x1_S800000x64_1_0_n_n_0_1_164
                (truncf .bf16 (W (Proc.devRef .tc main_arg0)) bitsLt_bf16_f32)
                (broadcastInDim S800000x1 ![0] bcast_S800000_S800000x1_0
                  (select
                    (cmpi .slt
                      (shapeCast _ (extractStridedSlice S800000x1 ![0, 0] (W (Proc.devRef .tc main_arg13)) slices_S800000x2_S800000x1_0_0) shapeCasts_S800000x1_S800000)
                      (broadcastInDim S800000 ![] bcast_S_S800000 (constantI S_ 32 0#32)))
                    (addi
                      (shapeCast _ (extractStridedSlice S800000x1 ![0, 0] (W (Proc.devRef .tc main_arg13)) slices_S800000x2_S800000x1_0_0) shapeCasts_S800000x1_S800000)
                      (broadcastInDim S800000 ![] bcast_S_S800000 (constantI S_ 32 50000#32)))
                    (shapeCast _ (extractStridedSlice S800000x1 ![0, 0] (W (Proc.devRef .tc main_arg13)) slices_S800000x2_S800000x1_0_0) shapeCasts_S800000x1_S800000)))⟩,
           ⟨S800000x64,
              Host.gather gather_S50000x64_S800000x1_S800000x64_1_0_n_n_0_1_164
                (truncf .bf16 (W (Proc.devRef .tc main_arg0)) bitsLt_bf16_f32)
                (broadcastInDim S800000x1 ![0] bcast_S800000_S800000x1_0
                  (select
                    (cmpi .slt
                      (shapeCast _ (extractStridedSlice S800000x1 ![0, 1] (W (Proc.devRef .tc main_arg13)) slices_S800000x2_S800000x1_0_1) shapeCasts_S800000x1_S800000)
                      (broadcastInDim S800000 ![] bcast_S_S800000 (constantI S_ 32 0#32)))
                    (addi
                      (shapeCast _ (extractStridedSlice S800000x1 ![0, 1] (W (Proc.devRef .tc main_arg13)) slices_S800000x2_S800000x1_0_1) shapeCasts_S800000x1_S800000)
                      (broadcastInDim S800000 ![] bcast_S_S800000 (constantI S_ 32 50000#32)))
                    (shapeCast _ (extractStridedSlice S800000x1 ![0, 1] (W (Proc.devRef .tc main_arg13)) slices_S800000x2_S800000x1_0_1) shapeCasts_S800000x1_S800000)))⟩,
           ⟨S800000x32, truncf .bf16 (W (Proc.devRef .tc main_arg1)) bitsLt_bf16_f32⟩,
           ⟨S800000x32,
              Host.gather gather_S50000x32_S800000x1_S800000x32_1_0_n_n_0_1_132
                (truncf .bf16 (W (Proc.devRef .tc main_arg2)) bitsLt_bf16_f32)
                (broadcastInDim S800000x1 ![0] bcast_S800000_S800000x1_0
                  (select
                    (cmpi .slt
                      (shapeCast _ (extractStridedSlice S800000x1 ![0, 0] (W (Proc.devRef .tc main_arg13)) slices_S800000x2_S800000x1_0_0) shapeCasts_S800000x1_S800000)
                      (broadcastInDim S800000 ![] bcast_S_S800000 (constantI S_ 32 0#32)))
                    (addi
                      (shapeCast _ (extractStridedSlice S800000x1 ![0, 0] (W (Proc.devRef .tc main_arg13)) slices_S800000x2_S800000x1_0_0) shapeCasts_S800000x1_S800000)
                      (broadcastInDim S800000 ![] bcast_S_S800000 (constantI S_ 32 50000#32)))
                    (shapeCast _ (extractStridedSlice S800000x1 ![0, 0] (W (Proc.devRef .tc main_arg13)) slices_S800000x2_S800000x1_0_0) shapeCasts_S800000x1_S800000)))⟩]
          concatenates_S800000x64_S800000x64_S800000x32_S800000x32_S800000x192_d1 := by
  rw [h0_main_v28_of_parts W, h0_main_v13 W, h0_main_v20 W, h0_main_v5 W, h0_main_v27 W]

/-! ## The second stretch: the messages summed at the nodes of column 1, the update's weights and biases -/

/-- The messages summed at the nodes of column 1, from zero. -/
theorem h1_main_v38 (W : Valuation τ sig (Elt F)) :
    StableHlo.after hostOps1 W (Proc.devRef .tc main_v38)
      = Host.scatterAdd scatter_S50000x64_S800000x1_S800000x64_1_0_0_1
          (broadcastInDim S50000x64 ![] bcast_S_S50000x64 (constant S_ .f32 0x00000000#32))
          (broadcastInDim S800000x1 ![0] bcast_S800000_S800000x1_0 (W (Proc.devRef .tc main_v3)))
          (W (Proc.devRef .tc main_v35)) := by
  dsimp only [hostOps1]
  after_results <;> rfl

/-- The first update weight, narrowed. -/
theorem h1_main_v39 (W : Valuation τ sig (Elt F)) :
    StableHlo.after hostOps1 W (Proc.devRef .tc main_v39) = truncf .bf16 (W (Proc.devRef .tc main_arg9)) bitsLt_bf16_f32 := by
  dsimp only [hostOps1]
  after_results <;> rfl

/-- The second update weight, narrowed. -/
theorem h1_main_v40 (W : Valuation τ sig (Elt F)) :
    StableHlo.after hostOps1 W (Proc.devRef .tc main_v40) = truncf .bf16 (W (Proc.devRef .tc main_arg11)) bitsLt_bf16_f32 := by
  dsimp only [hostOps1]
  after_results <;> rfl

/-- The first update bias as a one-row matrix. -/
theorem h1_main_v41 (W : Valuation τ sig (Elt F)) :
    StableHlo.after hostOps1 W (Proc.devRef .tc main_v41) = shapeCast _ (W (Proc.devRef .tc main_arg10)) shapeCasts_S128_S1x128 := by
  dsimp only [hostOps1]
  after_results <;> rfl

/-- The second update bias as a one-row matrix. -/
theorem h1_main_v42 (W : Valuation τ sig (Elt F)) :
    StableHlo.after hostOps1 W (Proc.devRef .tc main_v42) = shapeCast _ (W (Proc.devRef .tc main_arg12)) shapeCasts_S64_S1x64 := by
  dsimp only [hostOps1]
  after_results <;> rfl

/-! ## Three facts on the extended reals -/

/-- On the extended reals a narrowing format change is the identity. -/
theorem truncf_id {s : Shape} {φ ψ : FTy} (x : FVec Ideal s φ) (h : ψ.bits < φ.bits) : (truncf ψ x h : s.Idx → EReal) = x :=
  funext fun i => ValueIdx.truncf_apply x h i

/-- A 128-vector as a one-row matrix reads, at (0, n), the vector's entry n. -/
theorem row128_apply (a : FVec Ideal S128 .f32) (n : Fin 128) :
    shapeCast S1x128 a shapeCasts_S128_S1x128 (ValueIdx.ix2 0 n) = a (ValueIdx.ix1 n) :=
  ValueIdx.shapeCast_a_1a_apply a shapeCasts_S128_S1x128 0 n

/-- A 64-vector as a one-row matrix reads, at (0, n), the vector's entry n. -/
theorem row64_apply (a : FVec Ideal S64 .f32) (n : Fin 64) :
    shapeCast S1x64 a shapeCasts_S64_S1x64 (ValueIdx.ix2 0 n) = a (ValueIdx.ix1 n) :=
  ValueIdx.shapeCast_a_1a_apply a shapeCasts_S64_S1x64 0 n

end Cert.KernelIdeal.HostReads
end
-- ==== Proof.KernelIdeal.Results.lean ====
import proofs.«161019_j82592221102879_1_alg».proof.Proof.KernelIdeal.WholeRun
import proofs.«161019_j82592221102879_1_alg».proof.Proof.KernelIdeal.MsgArray
import proofs.«161019_j82592221102879_1_alg».proof.Proof.KernelIdeal.UpdArray
import proofs.«161019_j82592221102879_1_alg».proof.Proof.KernelIdeal.HostReads
import proofs.«161019_j82592221102879_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Results

open Idealize.ShloMosaic Idealize.ShloMosaic.TcCoe Idealize.ShloMosaic.ValueIdx
open Idealize.SL Idealize.SL.Sem
open Cert.KernelIdeal Cert.KernelIdeal.Gen Cert.KernelIdeal.Whole
open Cert.KernelIdeal.HostReads

/-! # The program's two results, read off the last contents

The new node features are the update launch's output array; the aggregated messages are the second host stretch's
scatter-add of the message launch's output array.  Each is written out over the launch memory: the weights pass
through a change of float format, the biases through a reshape to one row, and the gathered inputs are what the first
host stretch builds. -/

variable (m : (ℓ : Loc nD τ sig) → Buf (Elt Ideal) ℓ)

/-! ## Buffers no earlier item writes hold the launch memory -/

theorem W3_arg0 (c : Dev nD) : W3 m c (Proc.devRef .tc main_arg0) = m ((c : Thread nD τ).loc main_arg0) :=
  (W3_of m c main_arg0 (by decide)).trans <| (W2_of_ne m c main_arg0 (by decide)).trans <| (V1_of m c main_arg0 (by decide)).trans rfl
theorem W3_arg2 (c : Dev nD) : W3 m c (Proc.devRef .tc main_arg2) = m ((c : Thread nD τ).loc main_arg2) :=
  (W3_of m c main_arg2 (by decide)).trans <| (W2_of_ne m c main_arg2 (by decide)).trans <| (V1_of m c main_arg2 (by decide)).trans rfl
theorem W2_arg9 (c : Dev nD) : W2 m c (Proc.devRef .tc main_arg9) = m ((c : Thread nD τ).loc main_arg9) :=
  (W2_of_ne m c main_arg9 (by decide)).trans <| (V1_of m c main_arg9 (by decide)).trans rfl
theorem W2_arg10 (c : Dev nD) : W2 m c (Proc.devRef .tc main_arg10) = m ((c : Thread nD τ).loc main_arg10) :=
  (W2_of_ne m c main_arg10 (by decide)).trans <| (V1_of m c main_arg10 (by decide)).trans rfl
theorem W2_arg11 (c : Dev nD) : W2 m c (Proc.devRef .tc main_arg11) = m ((c : Thread nD τ).loc main_arg11) :=
  (W2_of_ne m c main_arg11 (by decide)).trans <| (V1_of m c main_arg11 (by decide)).trans rfl
theorem W2_arg12 (c : Dev nD) : W2 m c (Proc.devRef .tc main_arg12) = m ((c : Thread nD τ).loc main_arg12) :=
  (W2_of_ne m c main_arg12 (by decide)).trans <| (V1_of m c main_arg12 (by decide)).trans rfl

/-! ## The new node features -/

/-- The update launch's output array, over the launch memory. -/
theorem new_nodes (c : Dev nD) : W4 m c (Proc.devRef .tc main_v43)
    = Cert.Smpn.updArr (m ((c : Thread nD τ).loc main_arg0)) (m ((c : Thread nD τ).loc main_arg2))
        (truncf .bf16 (m ((c : Thread nD τ).loc main_arg9) : FVec Ideal S96x128 .f32) bitsLt_bf16_f32 : FVec Ideal S96x128 .bf16) (shapeCast _ (m ((c : Thread nD τ).loc main_arg10)) shapeCasts_S128_S1x128)
        (truncf .bf16 (m ((c : Thread nD τ).loc main_arg11) : FVec Ideal S128x64 .f32) bitsLt_bf16_f32 : FVec Ideal S128x64 .bf16) (shapeCast _ (m ((c : Thread nD τ).loc main_arg12)) shapeCasts_S64_S1x64) := by
  refine ((W4_arr m c 6).trans (UpdValue.final (E3 m) c)).trans ?_
  show Cert.Smpn.updArr (W3 m c (Proc.devRef .tc main_arg0)) (W3 m c (Proc.devRef .tc main_arg2))
      (StableHlo.after hostOps1 (W2 m c) (Proc.devRef .tc main_v39)) (StableHlo.after hostOps1 (W2 m c) (Proc.devRef .tc main_v41))
      (StableHlo.after hostOps1 (W2 m c) (Proc.devRef .tc main_v40)) (StableHlo.after hostOps1 (W2 m c) (Proc.devRef .tc main_v42)) = _
  rw [W3_arg0, W3_arg2, h1_main_v39, h1_main_v41, h1_main_v40, h1_main_v42, W2_arg9, W2_arg10, W2_arg11, W2_arg12]

/-! ## The aggregated messages -/

/-- The gathered edge inputs as the first host stretch builds them from the launch memory. -/
abbrev gathered (c : Dev nD) : Buf (Elt Ideal) ((c : Thread nD τ).loc main_v28) :=
  StableHlo.after hostOps0 (V0 m c) (Proc.devRef .tc main_v28)

/-- The message launch's output array, over the launch memory. -/
theorem messages (c : Dev nD) : W2 m c (Proc.devRef .tc main_v35)
    = Cert.Smpn.msgArr (gathered m c)
        (truncf .bf16 (m ((c : Thread nD τ).loc main_arg3) : FVec Ideal S192x128 .f32) bitsLt_bf16_f32 : FVec Ideal S192x128 .bf16) (shapeCast _ (m ((c : Thread nD τ).loc main_arg4)) shapeCasts_S128_S1x128)
        (truncf .bf16 (m ((c : Thread nD τ).loc main_arg5) : FVec Ideal S128x128 .f32) bitsLt_bf16_f32 : FVec Ideal S128x128 .bf16) (shapeCast _ (m ((c : Thread nD τ).loc main_arg6)) shapeCasts_S128_S1x128)
        (truncf .bf16 (m ((c : Thread nD τ).loc main_arg7) : FVec Ideal S128x64 .f32) bitsLt_bf16_f32 : FVec Ideal S128x64 .bf16) (shapeCast _ (m ((c : Thread nD τ).loc main_arg8)) shapeCasts_S64_S1x64) := by
  refine ((W2_arr m c 7).trans (MsgValue.final (E1 m) c)).trans ?_
  show Cert.Smpn.msgArr (StableHlo.after hostOps0 (V0 m c) (Proc.devRef .tc main_v28)) (StableHlo.after hostOps0 (V0 m c) (Proc.devRef .tc main_v29))
      (StableHlo.after hostOps0 (V0 m c) (Proc.devRef .tc main_v32)) (StableHlo.after hostOps0 (V0 m c) (Proc.devRef .tc main_v30))
      (StableHlo.after hostOps0 (V0 m c) (Proc.devRef .tc main_v33)) (StableHlo.after hostOps0 (V0 m c) (Proc.devRef .tc main_v31))
      (StableHlo.after hostOps0 (V0 m c) (Proc.devRef .tc main_v34)) = _
  rw [h0_main_v29, h0_main_v32, h0_main_v30, h0_main_v33, h0_main_v31, h0_main_v34]

/-- The destination column of the edge index as the first host stretch extracts it. -/
theorem dst_col (c : Dev nD) : W2 m c (Proc.devRef .tc main_v3)
    = shapeCast _ (extractStridedSlice S800000x1 ![0, 1] (m ((c : Thread nD τ).loc main_arg13)) slices_S800000x2_S800000x1_0_1) shapeCasts_S800000x1_S800000 :=
  (W2_of_ne m c main_v3 (by decide)).trans (h0_main_v3 (V0 m c))

/-- The second result: the scatter-add of the messages into zeros along the destination column. -/
theorem aggregated (c : Dev nD) : W4 m c (Proc.devRef .tc main_v38)
    = Host.scatterAdd (F := Ideal) scatter_S50000x64_S800000x1_S800000x64_1_0_0_1
        (broadcastInDim S50000x64 ![] bcast_S_S50000x64 (constant (F := Ideal) S_ .f32 0x00000000#32))
        (broadcastInDim S800000x1 ![0] bcast_S800000_S800000x1_0
          (shapeCast _ (extractStridedSlice S800000x1 ![0, 1] (m ((c : Thread nD τ).loc main_arg13)) slices_S800000x2_S800000x1_0_1) shapeCasts_S800000x1_S800000))
        (Cert.Smpn.msgArr (gathered m c)
          (truncf .bf16 (m ((c : Thread nD τ).loc main_arg3) : FVec Ideal S192x128 .f32) bitsLt_bf16_f32 : FVec Ideal S192x128 .bf16) (shapeCast _ (m ((c : Thread nD τ).loc main_arg4)) shapeCasts_S128_S1x128)
          (truncf .bf16 (m ((c : Thread nD τ).loc main_arg5) : FVec Ideal S128x128 .f32) bitsLt_bf16_f32 : FVec Ideal S128x128 .bf16) (shapeCast _ (m ((c : Thread nD τ).loc main_arg6)) shapeCasts_S128_S1x128)
          (truncf .bf16 (m ((c : Thread nD τ).loc main_arg7) : FVec Ideal S128x64 .f32) bitsLt_bf16_f32 : FVec Ideal S128x64 .bf16) (shapeCast _ (m ((c : Thread nD τ).loc main_arg8)) shapeCasts_S64_S1x64)) := by
  refine (W4_of_ne m c main_v38 (by decide)).trans ?_
  show StableHlo.after hostOps1 (W2 m c) (Proc.devRef .tc main_v38) = _
  rw [h1_main_v38, dst_col, messages]

/-! ## The run with its results named -/

/-- Every weakly fair execution from `m` terminates with the two results at the terms above and the arguments as
    launched. -/
theorem run_results (ρ : Dev nD → PrngReg) : θ_run defs (onTc (τ := τ) (main (F := Ideal))) ⟨m, fun _ => 0, ρ⟩ (fun r => ∀ c : Dev nD,
      r.2.mem ((c.tc : Thread nD τ).loc main_v43) = W4 m c (Proc.devRef .tc main_v43)
      ∧ r.2.mem ((c.tc : Thread nD τ).loc main_v38) = W4 m c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v43 (by decide)), h c _ (mem_uc main_v38 (by decide)),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c),
     (h c _ (mem_uc main_arg7 (by decide))).trans (W4_main_arg7 m c),
     (h c _ (mem_uc main_arg8 (by decide))).trans (W4_main_arg8 m c),
     (h c _ (mem_uc main_arg9 (by decide))).trans (W4_main_arg9 m c),
     (h c _ (mem_uc main_arg10 (by decide))).trans (W4_main_arg10 m c),
     (h c _ (mem_uc main_arg11 (by decide))).trans (W4_main_arg11 m c),
     (h c _ (mem_uc main_arg12 (by decide))).trans (W4_main_arg12 m c),
     (h c _ (mem_uc main_arg13 (by decide))).trans (W4_main_arg13 m c)⟩) (run_all m ρ)

end Cert.KernelIdeal.Results

end
-- ==== Proof.RefRows.lean ====
/-
  The reference's two results, read at one entry on the extended reals.

  Each dense layer of the reference is a matrix product with no batch axis followed by the addition of a bias vector
  that is first laid out as a one-row matrix and then repeated down the rows; `max(·, 0)` is the maximum with the zero
  scalar repeated over the whole array.  Read at entry (p, q), the layer is the weighted sum of row p of its input down
  column q of the weights, plus entry q of the bias: the row formula `Cert.Smpn.dense`.  Composing the layers gives an
  edge's message (three layers) and a node's new features (the node's own entry plus two layers of the node's features
  and its embedding side by side).
-/
import proofs.«161019_j82592221102879_1_alg».proof.ReferenceIdeal
import proofs.«161019_j82592221102879_1_alg».proof.Proof.Spec
import proofs.«161019_j82592221102879_1_alg».proof.Proof.LibMatmulPlain
import Idealize.ShloMosaic.Lib.ValueIdx
import Idealize.ShloMosaic.Lib.Pipeline.Value
import Idealize.ShloMosaic.PureOps.Ideal.Laws

noncomputable section

namespace Cert.ReferenceIdeal.Rows

open Idealize.ShloMosaic Idealize.ShloMosaic.ValueIdx Cert.ReferenceIdeal

/-! ## The pieces of a layer, for any extents -/

section Generic
variable {M K N : ℕ}

/-- A bias vector laid out as a one-row matrix and repeated down the rows reads, at entry (p, q), its entry q. -/
theorem bias_apply {α : Type} (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) (p : Fin M) (q : Fin N) :
    broadcastInDim ⟨2, ![M, N]⟩ ![0, 1] h2 (broadcastInDim ⟨2, ![1, N]⟩ ![1] h1 b) (ix2 p q) = b (ix1 q) := by
  refine (broadcastInDim_apply _ h2 _ (ix2 p q) (ix2 ⟨0, Nat.one_pos⟩ q) (fun a => ?_)).trans ?_
  · match a with
    | ⟨0, _⟩ => show 0 = if (1 : ℕ) = 1 then 0 else p.val; rw [if_pos rfl]
    | ⟨1, _⟩ =>
      show q.val = if N = 1 then 0 else q.val
      split
      · have := q.isLt; omega
      · rfl
  · refine broadcastInDim_apply _ h1 b (ix2 ⟨0, Nat.one_pos⟩ q) (ix1 q) (fun a => ?_)
    match a with
    | ⟨0, _⟩ =>
      show q.val = if N = 1 then 0 else q.val
      split
      · have := q.isLt; omega
      · rfl

/-- The zero scalar repeated over an array reads zero everywhere. -/
theorem zeros_apply {t : Shape} (h : (⟨0, ![]⟩ : Shape).BroadcastsInDim t (![] : Fin 0 → Fin t.rank)) (i : t.Idx) :
    broadcastInDim t ![] h (constant (F := Ideal) ⟨0, ![]⟩ .f32 0x00000000#32) i = 0 :=
  (broadcastInDim_apply _ h _ i ix0 (fun a => a.elim0)).trans ((constant_apply _ _).trans Ideal.ofBits_zero_f32)

/-- The maximum with the zero array, at an entry. -/
theorem relu_apply {t : Shape} (h : (⟨0, ![]⟩ : Shape).BroadcastsInDim t (![] : Fin 0 → Fin t.rank))
    (A : FVec Ideal t .f32) (i : t.Idx) :
    maximumf A (broadcastInDim t ![] h (constant (F := Ideal) ⟨0, ![]⟩ .f32 0x00000000#32)) i = max (A i) 0 := by
  rw [maximumf_apply, zeros_apply]

/-- A layer — product with the weights, plus the repeated bias — at entry (p, q) is the dense row formula of row p. -/
theorem layer_apply (D : DotDims ⟨2, ![M, K]⟩ ⟨2, ![K, N]⟩ ⟨2, ![M, N]⟩) (hD : Cert.Gcn.IsPlain D)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (b : FVec Ideal ⟨1, ![N]⟩ .f32)
    (p : Fin M) (q : Fin N) :
    addf (Host.dotGeneral D none A W) (broadcastInDim ⟨2, ![M, N]⟩ ![0, 1] h2 (broadcastInDim ⟨2, ![1, N]⟩ ![1] h1 b)) (ix2 p q)
      = Cert.Smpn.dense (fun k => A (ix2 p k)) W (fun n => b (ix1 n)) q := by
  rw [addf_apply, Cert.Gcn.dotGeneral_plain_apply D hD none A W p q, bias_apply h1 h2 b p q]
  rfl

/-- A layer followed by `max(·, 0)`, at entry (p, q). -/
theorem layer_relu_apply (D : DotDims ⟨2, ![M, K]⟩ ⟨2, ![K, N]⟩ ⟨2, ![M, N]⟩) (hD : Cert.Gcn.IsPlain D)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (A : FVec Ideal ⟨2, ![M, K]⟩ .f32) (W : FVec Ideal ⟨2, ![K, N]⟩ .f32) (b : FVec Ideal ⟨1, ![N]⟩ .f32)
    (p : Fin M) (q : Fin N) :
    maximumf (addf (Host.dotGeneral D none A W) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = max (Cert.Smpn.dense (fun k => A (ix2 p k)) W (fun n => b (ix1 n)) q) 0 := by
  rw [relu_apply, layer_apply D hD h1 h2 A W b p q]

end Generic

/-! ## The node's features and its embedding side by side -/

section
variable [Facts₀]
open Facts₀

/-- Row n of the two arrays joined along the columns: columns below 64 read the first array, the others the second,
    64 columns back. -/
theorem cat_apply (a0 : FVec Ideal S50000x64 .f32) (a2 : FVec Ideal S50000x32 .f32) (n : Fin 50000) (k : Fin 96) :
    concatenate S50000x96 1 [⟨S50000x64, a0⟩, ⟨S50000x32, a2⟩] concatenates_S50000x64_S50000x32_S50000x96_d1 (ix2 n k)
      = Cert.Smpn.catRow (fun k => a0 (ix2 n k)) (fun k => a2 (ix2 n k)) k := by
  unfold Cert.Smpn.catRow
  by_cases hk : k.val < 64
  · rw [dif_pos hk]
    exact concatenate_pair_apply_left 1 a0 a2 _ (ix2 n k) rfl (ix2 n ⟨k.val, hk⟩)
      (fun b => match b with | ⟨0, _⟩ => rfl | ⟨1, _⟩ => rfl)
  · rw [dif_neg hk]
    exact concatenate_pair_apply_right 1 a0 a2 _ (ix2 n k) rfl rfl (ix2 n ⟨k.val - 64, by omega⟩)
      (fun b hb => match b, hb with
        | ⟨0, _⟩, _ => rfl
        | ⟨1, _⟩, hb => absurd rfl hb)
      (by show k.val - 64 + 64 = k.val; omega)

/-! ## The two results -/

/-- An edge's message at column j: the three-layer row formula of the edge's gathered row. -/
theorem ref_msg_apply (X : FVec Ideal S800000x192 .f32) (a3 : FVec Ideal S192x128 .f32) (a4 : FVec Ideal S128 .f32)
    (a5 : FVec Ideal S128x128 .f32) (a6 : FVec Ideal S128 .f32) (a7 : FVec Ideal S128x64 .f32) (a8 : FVec Ideal S64 .f32)
    (e : Fin 800000) (j : Fin 64) :
    addf (Host.dotGeneral dot_S800000x128_S128x64_S800000x64_1_0_0_1_n_n none
        (maximumf (addf (Host.dotGeneral dot_S800000x128_S128x128_S800000x128_1_0_0_1_n_n none
            (maximumf (addf (Host.dotGeneral dot_S800000x192_S192x128_S800000x128_1_0_0_1_n_n none X a3)
                (broadcastInDim S800000x128 ![0, 1] bcast_S1x128_S800000x128_0_1 (broadcastInDim S1x128 ![1] bcast_S128_S1x128_1 a4)))
              (broadcastInDim S800000x128 ![] bcast_S_S800000x128 (constant (F := Ideal) S_ .f32 0x00000000#32))) a5)
            (broadcastInDim S800000x128 ![0, 1] bcast_S1x128_S800000x128_0_1 (broadcastInDim S1x128 ![1] bcast_S128_S1x128_1 a6)))
          (broadcastInDim S800000x128 ![] bcast_S_S800000x128 (constant (F := Ideal) S_ .f32 0x00000000#32))) a7)
      (broadcastInDim S800000x64 ![0, 1] bcast_S1x64_S800000x64_0_1 (broadcastInDim S1x64 ![1] bcast_S64_S1x64_1 a8)) (ix2 e j)
      = Cert.Smpn.msgRow (fun k => X (ix2 e k)) a3 (fun n => a4 (ix1 n)) a5 (fun n => a6 (ix1 n)) a7 (fun n => a8 (ix1 n)) j := by
  refine (layer_apply _ ⟨rfl, rfl, rfl, rfl, rfl, rfl⟩ _ _ _ a7 a8 e j).trans ?_
  unfold Cert.Smpn.msgRow
  refine congrArg (fun x => Cert.Smpn.dense x a7 (fun n => a8 (ix1 n)) j) (funext fun k2 => ?_)
  refine (layer_relu_apply _ ⟨rfl, rfl, rfl, rfl, rfl, rfl⟩ _ _ _ _ a5 a6 e k2).trans ?_
  refine congrArg (fun x => max (Cert.Smpn.dense x a5 (fun n => a6 (ix1 n)) k2) 0) (funext fun k1 => ?_)
  exact layer_relu_apply _ ⟨rfl, rfl, rfl, rfl, rfl, rfl⟩ _ _ _ X a3 a4 e k1

/-- A node's new features at column j: its own entry plus the two-layer row formula of its features and embedding side
    by side. -/
theorem ref_upd_apply (a0 : FVec Ideal S50000x64 .f32) (a2 : FVec Ideal S50000x32 .f32) (a9 : FVec Ideal S96x128 .f32)
    (a10 : FVec Ideal S128 .f32) (a11 : FVec Ideal S128x64 .f32) (a12 : FVec Ideal S64 .f32) (n : Fin 50000) (j : Fin 64) :
    addf a0 (addf (Host.dotGeneral dot_S50000x128_S128x64_S50000x64_1_0_0_1_n_n none
        (maximumf (addf (Host.dotGeneral dot_S50000x96_S96x128_S50000x128_1_0_0_1_n_n none
            (concatenate S50000x96 1 [⟨S50000x64, a0⟩, ⟨S50000x32, a2⟩] concatenates_S50000x64_S50000x32_S50000x96_d1) a9)
            (broadcastInDim S50000x128 ![0, 1] bcast_S1x128_S50000x128_0_1 (broadcastInDim S1x128 ![1] bcast_S128_S1x128_1 a10)))
          (broadcastInDim S50000x128 ![] bcast_S_S50000x128 (constant (F := Ideal) S_ .f32 0x00000000#32))) a11)
      (broadcastInDim S50000x64 ![0, 1] bcast_S1x64_S50000x64_0_1 (broadcastInDim S1x64 ![1] bcast_S64_S1x64_1 a12))) (ix2 n j)
      = Cert.Smpn.updRow (fun k => a0 (ix2 n k)) (Cert.Smpn.catRow (fun k => a0 (ix2 n k)) (fun k => a2 (ix2 n k))) a9
          (fun q => a10 (ix1 q)) a11 (fun q => a12 (ix1 q)) j := by
  unfold Cert.Smpn.updRow
  refine (addf_apply _ _ _).trans ?_
  refine congrArg (fun y => a0 (ix2 n j) + y) ?_
  refine (layer_apply _ ⟨rfl, rfl, rfl, rfl, rfl, rfl⟩ _ _ _ a11 a12 n j).trans ?_
  refine congrArg (fun x => Cert.Smpn.dense x a11 (fun q => a12 (ix1 q)) j) (funext fun k => ?_)
  refine (layer_relu_apply _ ⟨rfl, rfl, rfl, rfl, rfl, rfl⟩ _ _ _ _ a9 a10 n k).trans ?_
  refine congrArg (fun x => max (Cert.Smpn.dense x a9 (fun q => a10 (ix1 q)) k) 0) (funext fun k' => ?_)
  exact cat_apply a0 a2 n k'

end

end Cert.ReferenceIdeal.Rows

end
-- ==== Proof.Bridge.lean ====
/-
  The row formulas, laid out as whole arrays, are the reference's two results on the extended reals.

  The array of all edges' messages takes its weights after a change of number format, which on the extended reals is
  the identity, and its biases as one-row matrices: a vector of 128 (or 64) entries recast to one row, whose entry
  (0, n) is the vector's entry n.  With those two facts each entry of the array is the three-layer row formula of the
  reference's message term at that entry; likewise for the nodes' new features.
-/
import proofs.«161019_j82592221102879_1_alg».proof.KernelIdeal
import proofs.«161019_j82592221102879_1_alg».proof.ReferenceIdeal
import proofs.«161019_j82592221102879_1_alg».proof.Proof.Spec
import proofs.«161019_j82592221102879_1_alg».proof.Proof.RefRows
import Idealize.ShloMosaic.Lib.ValueIdx
import Idealize.ShloMosaic.Lib.ValueLayout

noncomputable section

namespace Cert.Bridge

open Idealize.ShloMosaic Idealize.ShloMosaic.ValueIdx Cert.ReferenceIdeal

/-- A change of number format is the identity on arrays of extended reals. -/
theorem truncf_eq {s : Shape} {φ ψ : FTy} (a : FVec Ideal s φ) (h : ψ.bits < φ.bits) :
    (truncf ψ a h : FVec Ideal s ψ) = a := rfl

/-- A vector recast to one row, read along that row, is the vector. -/
theorem row_eq {N : ℕ} (b : FVec Ideal ⟨1, ![N]⟩ .f32) (h : (⟨1, ![N]⟩ : Shape).ShapeCasts ⟨2, ![1, N]⟩) :
    (fun n : Fin N => shapeCast ⟨2, ![1, N]⟩ b h (ix2 (0 : Fin 1) n)) = fun n => b (ix1 n) :=
  funext fun n => shapeCast_a_1a_apply b h 0 n

section
variable [Cert.KernelIdeal.Facts₀] [Cert.ReferenceIdeal.Facts₀]
open Cert.ReferenceIdeal.Facts₀

/-- All edges' messages: the array of three-layer row formulas is the reference's message term. -/
theorem msg_eq (X : FVec Ideal Cert.ReferenceIdeal.S800000x192 .f32) (a3 : FVec Ideal Cert.ReferenceIdeal.S192x128 .f32)
    (a4 : FVec Ideal Cert.ReferenceIdeal.S128 .f32) (a5 : FVec Ideal Cert.ReferenceIdeal.S128x128 .f32)
    (a6 : FVec Ideal Cert.ReferenceIdeal.S128 .f32) (a7 : FVec Ideal Cert.ReferenceIdeal.S128x64 .f32)
    (a8 : FVec Ideal Cert.ReferenceIdeal.S64 .f32) :
    Cert.Smpn.msgArr X
        (truncf .bf16 a3 Cert.KernelIdeal.Facts₀.bitsLt_bf16_f32)
        (shapeCast Cert.KernelIdeal.S1x128 a4 Cert.KernelIdeal.Facts₀.shapeCasts_S128_S1x128)
        (truncf .bf16 a5 Cert.KernelIdeal.Facts₀.bitsLt_bf16_f32)
        (shapeCast Cert.KernelIdeal.S1x128 a6 Cert.KernelIdeal.Facts₀.shapeCasts_S128_S1x128)
        (truncf .bf16 a7 Cert.KernelIdeal.Facts₀.bitsLt_bf16_f32)
        (shapeCast Cert.KernelIdeal.S1x64 a8 Cert.KernelIdeal.Facts₀.shapeCasts_S64_S1x64)
      = addf (Host.dotGeneral dot_S800000x128_S128x64_S800000x64_1_0_0_1_n_n none
        (maximumf (addf (Host.dotGeneral dot_S800000x128_S128x128_S800000x128_1_0_0_1_n_n none
            (maximumf (addf (Host.dotGeneral dot_S800000x192_S192x128_S800000x128_1_0_0_1_n_n none X a3)
                (broadcastInDim S800000x128 ![0, 1] bcast_S1x128_S800000x128_0_1 (broadcastInDim S1x128 ![1] bcast_S128_S1x128_1 a4)))
              (broadcastInDim S800000x128 ![] bcast_S_S800000x128 (constant (F := Ideal) S_ .f32 0x00000000#32))) a5)
            (broadcastInDim S800000x128 ![0, 1] bcast_S1x128_S800000x128_0_1 (broadcastInDim S1x128 ![1] bcast_S128_S1x128_1 a6)))
          (broadcastInDim S800000x128 ![] bcast_S_S800000x128 (constant (F := Ideal) S_ .f32 0x00000000#32))) a7)
      (broadcastInDim S800000x64 ![0, 1] bcast_S1x64_S800000x64_0_1 (broadcastInDim S1x64 ![1] bcast_S64_S1x64_1 a8)) := by
  funext i
  obtain ⟨e, j, rfl⟩ : ∃ (e : Fin 800000) (j : Fin 64), i = ix2 e j := ⟨i 0, i 1, eq_ix2 i⟩
  refine Eq.trans ?_ (Cert.ReferenceIdeal.Rows.ref_msg_apply X a3 a4 a5 a6 a7 a8 e j).symm
  show Cert.Smpn.msgRow (fun k => X (ix2 e k)) a3
      (fun n => shapeCast Cert.KernelIdeal.S1x128 a4 Cert.KernelIdeal.Facts₀.shapeCasts_S128_S1x128 (ix2 (0 : Fin 1) n)) a5
      (fun n => shapeCast Cert.KernelIdeal.S1x128 a6 Cert.KernelIdeal.Facts₀.shapeCasts_S128_S1x128 (ix2 (0 : Fin 1) n)) a7
      (fun n => shapeCast Cert.KernelIdeal.S1x64 a8 Cert.KernelIdeal.Facts₀.shapeCasts_S64_S1x64 (ix2 (0 : Fin 1) n)) j = _
  rw [row_eq a4, row_eq a6, row_eq a8]

/-- All nodes' new features: the array of two-layer row formulas is the reference's new-node term. -/
theorem upd_eq (a0 : FVec Ideal Cert.ReferenceIdeal.S50000x64 .f32) (a2 : FVec Ideal Cert.ReferenceIdeal.S50000x32 .f32)
    (a9 : FVec Ideal Cert.ReferenceIdeal.S96x128 .f32) (a10 : FVec Ideal Cert.ReferenceIdeal.S128 .f32)
    (a11 : FVec Ideal Cert.ReferenceIdeal.S128x64 .f32) (a12 : FVec Ideal Cert.ReferenceIdeal.S64 .f32) :
    Cert.Smpn.updArr a0 a2
        (truncf .bf16 a9 Cert.KernelIdeal.Facts₀.bitsLt_bf16_f32)
        (shapeCast Cert.KernelIdeal.S1x128 a10 Cert.KernelIdeal.Facts₀.shapeCasts_S128_S1x128)
        (truncf .bf16 a11 Cert.KernelIdeal.Facts₀.bitsLt_bf16_f32)
        (shapeCast Cert.KernelIdeal.S1x64 a12 Cert.KernelIdeal.Facts₀.shapeCasts_S64_S1x64)
      = addf a0 (addf (Host.dotGeneral dot_S50000x128_S128x64_S50000x64_1_0_0_1_n_n none
        (maximumf (addf (Host.dotGeneral dot_S50000x96_S96x128_S50000x128_1_0_0_1_n_n none
            (concatenate S50000x96 1 [⟨S50000x64, a0⟩, ⟨S50000x32, a2⟩] concatenates_S50000x64_S50000x32_S50000x96_d1) a9)
            (broadcastInDim S50000x128 ![0, 1] bcast_S1x128_S50000x128_0_1 (broadcastInDim S1x128 ![1] bcast_S128_S1x128_1 a10)))
          (broadcastInDim S50000x128 ![] bcast_S_S50000x128 (constant (F := Ideal) S_ .f32 0x00000000#32))) a11)
      (broadcastInDim S50000x64 ![0, 1] bcast_S1x64_S50000x64_0_1 (broadcastInDim S1x64 ![1] bcast_S64_S1x64_1 a12))) := by
  funext i
  obtain ⟨n, j, rfl⟩ : ∃ (n : Fin 50000) (j : Fin 64), i = ix2 n j := ⟨i 0, i 1, eq_ix2 i⟩
  refine Eq.trans ?_ (Cert.ReferenceIdeal.Rows.ref_upd_apply a0 a2 a9 a10 a11 a12 n j).symm
  show Cert.Smpn.updRow (fun k => a0 (ix2 n k)) (Cert.Smpn.catRow (fun k => a0 (ix2 n k)) (fun k => a2 (ix2 n k))) a9
      (fun q => shapeCast Cert.KernelIdeal.S1x128 a10 Cert.KernelIdeal.Facts₀.shapeCasts_S128_S1x128 (ix2 (0 : Fin 1) q)) a11
      (fun q => shapeCast Cert.KernelIdeal.S1x64 a12 Cert.KernelIdeal.Facts₀.shapeCasts_S64_S1x64 (ix2 (0 : Fin 1) q)) j = _
  rw [row_eq a10, row_eq a12]

end

end Cert.Bridge

end
-- ==== Proof.lean ====
/-
  One message-passing layer of a graph network, a Pallas program against its jnp reference.

  The program gathers each edge's source and destination node rows and its source's spacetime row, lays them beside the
  edge's own features, runs a three-layer network over the edges in eighty row blocks on the device, scatter-adds the
  messages to their destination nodes on the host, and updates every node by a two-layer network in ten row blocks on
  the device.  The reference does the same with whole-array operations.

  Frames: each program runs to the end, faults nowhere and leaves its fourteen argument arrays as launched — for the
  two device programs because no host operation writes an argument and each launch writes only its own output array;
  for the reference by its run read back.  The idealization rewrote nothing, so `preserves` has nothing to state.
  Equal results on the extended reals: row by row both sides are the same dense layers (a matrix product into a zero
  accumulator and the host's dot product are one sum; a change of float format is the identity; a bias reshaped to one
  row and a bias broadcast read the same entry), the gathers and the scatter-add are the same host operations applied
  to equal operands, and the blocks tile the rows.  No law used needs finiteness, so the precondition is not opened.
-/
import proofs.«161019_j82592221102879_1_alg».proof.Defs
import proofs.«161019_j82592221102879_1_alg».proof.Proof.Gen.Kernel
import proofs.«161019_j82592221102879_1_alg».proof.Proof.Gen.KernelIdeal
import proofs.«161019_j82592221102879_1_alg».proof.Proof.Gen.ReferenceIdeal
import proofs.«161019_j82592221102879_1_alg».proof.Proof.Gen.Pre_finite_inputs
import proofs.«161019_j82592221102879_1_alg».proof.Proof.Gen.ReferenceIdeal.Run
import proofs.«161019_j82592221102879_1_alg».proof.Proof.Kernel.WholeRun
import proofs.«161019_j82592221102879_1_alg».proof.Proof.KernelIdeal.WholeRun
import proofs.«161019_j82592221102879_1_alg».proof.Proof.KernelIdeal.Results
import proofs.«161019_j82592221102879_1_alg».proof.Proof.Bridge

noncomputable section

namespace Cert.Proof

open Idealize.ShloMosaic Idealize.ShloMosaic.TcCoe Idealize.SL.Sem

theorem frame_kernel : Cert.frame_Kernel := fun m ρ _ => Cert.Kernel.Whole.frame (F := Bits) m ρ
theorem frame_kernelIdeal : Cert.frame_KernelIdeal := fun m ρ _ => Cert.KernelIdeal.Whole.frame (F := Ideal) m ρ
/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the same two results: the new node features are
    the update network's array, which is the reference's new-node term; the aggregated messages are the same
    scatter-add, along the same destination column, of message arrays that are equal because the message network's
    array is the reference's message term over the gathered inputs, and the gathered inputs differ only by a change of
    float format, the identity on the extended reals. -/
theorem algebraic : Cert.algebraic_KernelIdeal_ReferenceIdeal := by
  intro m ρ m' ρ' _ hagree
  refine ⟨fun c => Cert.KernelIdeal.Whole.W4 m c (Proc.devRef .tc Cert.KernelIdeal.main_v43),
    fun c => Cert.KernelIdeal.Whole.W4 m c (Proc.devRef .tc Cert.KernelIdeal.main_v38),
    Cert.KernelIdeal.Results.run_results m ρ, ?_⟩
  refine (θ_run Cert.ReferenceIdeal.defs _ _).mono (fun r h c => ?_) (Cert.ReferenceIdeal.Value.run (F := Ideal) m' ρ')
  obtain ⟨h53, h42, hargs⟩ := h c
  obtain ⟨g0, g1, g2, g3, g4, g5, g6, g7, g8, g9, g10, g11, g12, g13⟩ := hagree c
  refine ⟨h53.trans ?_, h42.trans ?_, hargs⟩
  · show _ = Cert.KernelIdeal.Whole.W4 m c (Proc.devRef .tc Cert.KernelIdeal.main_v43)
    rw [g0, g2, g9, g10, g11, g12, Cert.KernelIdeal.Results.new_nodes]
    exact (Cert.Bridge.upd_eq _ _ _ _ _ _).symm
  · show _ = Cert.KernelIdeal.Whole.W4 m c (Proc.devRef .tc Cert.KernelIdeal.main_v38)
    rw [g0, g1, g2, g3, g4, g5, g6, g7, g8, g13, Cert.KernelIdeal.Results.aggregated, Cert.Bridge.msg_eq]
    dsimp only [Cert.KernelIdeal.Results.gathered]
    rw [Cert.KernelIdeal.HostReads.h0_main_v28]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
